-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S12288x4096 : Shape := ⟨2, ![12288, 4096]⟩
abbrev S32x128 : Shape := ⟨2, ![32, 128]⟩
abbrev S32x128x128 : Shape := ⟨3, ![32, 128, 128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S32x128 : S_.BroadcastsInDim S32x128 (![] : Fin 0 → Fin S32x128.rank)
  reducesTo_S32x128_S_d0_1 : S32x128.ReducesTo [0, 1] S_
  bcast_S_S32x128x128 : S_.BroadcastsInDim S32x128x128 (![] : Fin 0 → Fin S32x128x128.rank)
  reducesTo_S32x128x128_S_d0_1_2 : S32x128x128.ReducesTo [0, 1, 2] S_

variable [Facts]

def fn_part1 {F : FTy → Type} [FloatOps F] (main_v13 : IVec S_ 1) (main_v16 : IVec S32x128x128 1) : IVec S_ 1 :=
  let main_c_5 : IVec S_ 1 := constantI S_ 1 1#1
  let main_v17 : IVec S_ 1 := (fun x v => Host.reduce IntOp.andi x v reducesTo_S32x128x128_S_d0_1_2 h_S_) main_v16 main_c_5
  let main_v18 : IVec S_ 1 := andi main_v13 main_v17
  main_v18

def fn {F : FTy → Type} [FloatOps F] (main_arg0 : FVec F S128x4096 .f32) (main_arg1 : FVec F S12288x4096 .f32) (main_arg2 : FVec F S32x128 .f32) (main_arg3 : FVec F S32x128x128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128x128 .f32 := Host.absf main_arg3
  let main_cst_4 : FVec F S_ .f32 := constant S_ .f32 0x7F800000#32
  let main_v15 : FVec F S32x128x128 .f32 := broadcastInDim S32x128x128 ![] bcast_S_S32x128x128 main_cst_4
  let main_v16 : IVec S32x128x128 1 := cmpf .olt main_v14 main_v15
  fn_part1 (F := F) main_v13 main_v16
-- ==== Kernel.lean ====
abbrev S128x4096 : Shape := ⟨2, ![128, 4096]⟩
abbrev S12288x4096 : Shape := ⟨2, ![12288, 4096]⟩
abbrev S32x128 : Shape := ⟨2, ![32, 128]⟩
abbrev S32x128x128 : Shape := ⟨3, ![32, 128, 128]⟩
abbrev S128 : Shape := ⟨1, ![128]⟩
abbrev S_ : Shape := ⟨0, ![]⟩
abbrev S32x1x128 : Shape := ⟨3, ![32, 1, 128]⟩
abbrev S1x128x1 : Shape := ⟨3, ![1, 128, 1]⟩
abbrev S32x128x1 : Shape := ⟨3, ![32, 128, 1]⟩
abbrev S256x4096 : Shape := ⟨2, ![256, 4096]⟩
abbrev S2x128x128 : Shape := ⟨3, ![2, 128, 128]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 48
  | .vmem => 17
  | .smem => 0
  | _ => 0

abbrev bufTy : (tb : Table) → Fin (tcTables nBuf tb) → BufTy
  | .hbm, ⟨0, _⟩ => ⟨S128x4096, .f32⟩
  | .hbm, ⟨1, _⟩ => ⟨S12288x4096, .f32⟩
  | .hbm, ⟨2, _⟩ => ⟨S32x128, .f32⟩
  | .hbm, ⟨3, _⟩ => ⟨S32x128x128, .f32⟩
  | .hbm, ⟨4, _⟩ => ⟨S128x4096, .bf16⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S32x1x128, .f32⟩
  | .hbm, ⟨17, _⟩ => ⟨S1x128x1, .i32⟩
  | .hbm, ⟨18, _⟩ => ⟨S1x128x1, .f32⟩
  | .hbm, ⟨19, _⟩ => ⟨S1x128x1, .f32⟩
  | .hbm, ⟨20, _⟩ => ⟨S32x128x128, .f32⟩
  | .hbm, ⟨21, _⟩ => ⟨S32x128x128, .f32⟩
  | .hbm, ⟨22, _⟩ => ⟨S32x128x128, .f32⟩
  | .hbm, ⟨23, _⟩ => ⟨S_, .f32⟩
  | .hbm, ⟨24, _⟩ => ⟨S32x128x128, .f32⟩
  | .hbm, ⟨25, _⟩ => ⟨S32x128x128, .f32⟩
  | .hbm, ⟨26, _⟩ => ⟨S32x1x128, .f32⟩
  | .hbm, ⟨27, _⟩ => ⟨S1x128x1, .i32⟩
  | .hbm, ⟨28, _⟩ => ⟨S1x128x1, .f32⟩
  | .hbm, ⟨29, _⟩ => ⟨S1x128x1, .f32⟩
  | .hbm, ⟨30, _⟩ => ⟨S32x128x128, .f32⟩
  | .hbm, ⟨31, _⟩ => ⟨S32x128x128, .f32⟩
  | .hbm, ⟨32, _⟩ => ⟨S32x128x128, .f32⟩
  | .hbm, ⟨33, _⟩ => ⟨S_, .f32⟩
  | .hbm, ⟨34, _⟩ => ⟨S32x128x128, .f32⟩
  | .hbm, ⟨35, _⟩ => ⟨S32x128x128, .f32⟩
  | .hbm, ⟨36, _⟩ => ⟨S32x128x1, .f32⟩
  | .hbm, ⟨37, _⟩ => ⟨S32x128x1, .f32⟩
  | .hbm, ⟨38, _⟩ => ⟨S32x128x1, .f32⟩
  | .hbm, ⟨39, _⟩ => ⟨S32x128x1, .f32⟩
  | .hbm, ⟨40, _⟩ => ⟨S32x128x1, .f32⟩
  | .hbm, ⟨41, _⟩ => ⟨S32x128x1, .f32⟩
  | .hbm, ⟨42, _⟩ => ⟨S32x128x1, .f32⟩
  | .hbm, ⟨43, _⟩ => ⟨S32x128x1, .f32⟩
  | .hbm, ⟨44, _⟩ => ⟨S32x128x128, .f32⟩
  | .hbm, ⟨45, _⟩ => ⟨S32x128x128, .f32⟩
  | .hbm, ⟨46, _⟩ => ⟨S128x4096, .f32⟩
  | .hbm, ⟨47, _⟩ => ⟨S32x128x128, .f32⟩
  | .local _ .vmem, ⟨0, _⟩ => ⟨S128x4096, .bf16⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S2x128x128, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x128x128, .f32⟩
  | .local _ .vmem, ⟨12, _⟩ => ⟨S2x128x128, .f32⟩
  | .local _ .vmem, ⟨13, _⟩ => ⟨S128x256, .f32⟩
  | .local _ .vmem, ⟨14, _⟩ => ⟨S128x256, .f32⟩
  | .local _ .vmem, ⟨15, _⟩ => ⟨S2x128x128, .f32⟩
  | .local _ .vmem, ⟨16, _⟩ => ⟨S2x128x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  bcast_S_S128 : S_.BroadcastsInDim S128 (![] : Fin 0 → Fin S128.rank)
  bcast_S32x128_S32x1x128_0_2 : S32x128.BroadcastsInDim S32x1x128 (![0, 2] : Fin 2 → Fin S32x1x128.rank)
  bcast_S128_S1x128x1_1 : S128.BroadcastsInDim S1x128x1 (![1] : Fin 1 → Fin S1x128x1.rank)
  bcast_S32x1x128_S32x128x128_0_1_2 : S32x1x128.BroadcastsInDim S32x128x128 (![0, 1, 2] : Fin 3 → Fin S32x128x128.rank)
  bcast_S1x128x1_S32x128x128_0_1_2 : S1x128x1.BroadcastsInDim S32x128x128 (![0, 1, 2] : Fin 3 → Fin S32x128x128.rank)
  bcast_S_S32x128x128 : S_.BroadcastsInDim S32x128x128 (![] : Fin 0 → Fin S32x128x128.rank)
  bcast_S32x128_S32x128x1_0_1 : S32x128.BroadcastsInDim S32x128x1 (![0, 1] : Fin 2 → Fin S32x128x1.rank)
  bcast_S32x128x1_S32x128x128_0_1_2 : S32x128x1.BroadcastsInDim S32x128x128 (![0, 1, 2] : Fin 3 → Fin S32x128x128.rank)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S256x4096_S256x4096_0_0 : ∀ a, (![0, 0] : Fin 2 → Nat) a + S256x4096.size a ≤ S256x4096.size a
  h_S256x4096 : 0 < S256x4096.numel
  iota_S128x128_d0_w32 : S128x128.Iotas .tc 32 [0]
  iota_S128x128_d1_w32 : S128x128.Iotas .tc 32 [1]
  slices_S128x256_o0_0_S128x128 : S128x256.Slices ![0, 0] S128x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  shapeCasts_S128x128_S1x128x128 : S128x128.ShapeCasts S1x128x128
  slices_S128x256_o0_128_S128x128 : S128x256.Slices ![0, 128] S128x128
  inb_S2x128x128_S1x128x128_1_0_0 : ∀ a, (![1, 0, 0] : Fin 3 → Nat) a + S1x128x128.size a ≤ S2x128x128.size a
  concatenates_S128x128_S128x128_S128x256_d1 : Shape.Concatenates [S128x128, S128x128] S128x256 1
  inb_S128x256_S128x256_0_0 : ∀ a, (![0, 0] : Fin 2 → Nat) a + S128x256.size a ≤ S128x256.size a
  h_S128x256 : 0 < S128x256.numel
  dot_S128x4096_S256x4096_S128x256_1_1_0_0_n_n_wf : DotDims.WF S128x4096 S256x4096 S128x256 [1] [1] [0] [0] [] []
  dot_S128x128_S128x128_S128x128_1_1_0_0_n_n_wf : DotDims.WF S128x128 S128x128 S128x128 [1] [1] [0] [0] [] []
  dot_S128x128_S128x128_S128x128_1_0_0_1_n_n_wf : DotDims.WF S128x128 S128x128 S128x128 [1] [0] [0] [1] [] []
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .bf16 = 32 ∨ (Rect.block (s := S128x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S12288x4096.size a
  hwx0_1 : ∀ i : grid0.Coords, EltTy.bits .f32 = 32 ∨ (Rect.block (s := S12288x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S12288x4096.size a
  hwx0_2 : ∀ i : grid0.Coords, EltTy.bits .f32 = 32 ∨ (Rect.block (s := S12288x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S12288x4096.size a
  hwx0_3 : ∀ i : grid0.Coords, EltTy.bits .f32 = 32 ∨ (Rect.block (s := S12288x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S32x128x128.size a
  hwx0_4 : ∀ i : grid0.Coords, EltTy.bits .f32 = 32 ∨ (Rect.block (s := S32x128x128) S2x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x128x128.size a ≤ S32x128x128.size a
  hwx0_5 : ∀ i : grid0.Coords, EltTy.bits .f32 = 32 ∨ (Rect.block (s := S32x128x128) S2x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x128x128.size a ≤ S32x128x128.size a
  hwx0_6 : ∀ i : grid0.Coords, EltTy.bits .f32 = 32 ∨ (Rect.block (s := S32x128x128) S2x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x4096.size a
  hwx0_7 : ∀ i : grid0.Coords, EltTy.bits .f32 = 32 ∨ (Rect.block (s := S128x4096) S128x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x128x128.size a ≤ S32x128x128.size a
  hwx0_8 : ∀ i : grid0.Coords, EltTy.bits .f32 = 32 ∨ (Rect.block (s := S32x128x128) S2x128x128.size (cc0_transform_8 i) (hinb0_8 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf
def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2x128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S2x128x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37_0) S128x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v37_1) S2x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x4096 : Shape := ⟨2, ![128, 4096]⟩
abbrev S12288x4096 : Shape := ⟨2, ![12288, 4096]⟩
abbrev S32x128 : Shape := ⟨2, ![32, 128]⟩
abbrev S32x128x128 : Shape := ⟨3, ![32, 128, 128]⟩
abbrev S_ : Shape := ⟨0, ![]⟩
abbrev S4096x12288 : Shape := ⟨2, ![4096, 12288]⟩
abbrev S128x12288 : Shape := ⟨2, ![128, 12288]⟩
abbrev S128x3x32x128 : Shape := ⟨4, ![128, 3, 32, 128]⟩
abbrev S3x32x128x128 : Shape := ⟨4, ![3, 32, 128, 128]⟩
abbrev S1x32x128x128 : Shape := ⟨4, ![1, 32, 128, 128]⟩
abbrev S32x1x128 : Shape := ⟨3, ![32, 1, 128]⟩
abbrev S128 : Shape := ⟨1, ![128]⟩
abbrev S1x128x1 : Shape := ⟨3, ![1, 128, 1]⟩
abbrev S128x128 : Shape := ⟨2, ![128, 128]⟩
abbrev S32x128x1 : Shape := ⟨3, ![32, 128, 1]⟩
abbrev S128x32x128 : Shape := ⟨3, ![128, 32, 128]⟩

abbrev nBuf : Space → Nat
  | .hbm => 96
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S12288x4096, .f32⟩
  | .hbm, ⟨2, _⟩ => ⟨S32x128, .f32⟩
  | .hbm, ⟨3, _⟩ => ⟨S32x128x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x12288, .f32⟩
  | .hbm, ⟨9, _⟩ => ⟨S128x12288, .f32⟩
  | .hbm, ⟨10, _⟩ => ⟨S128x3x32x128, .f32⟩
  | .hbm, ⟨11, _⟩ => ⟨S3x32x128x128, .f32⟩
  | .hbm, ⟨12, _⟩ => ⟨S1x32x128x128, .f32⟩
  | .hbm, ⟨13, _⟩ => ⟨S32x128x128, .f32⟩
  | .hbm, ⟨14, _⟩ => ⟨S1x32x128x128, .f32⟩
  | .hbm, ⟨15, _⟩ => ⟨S32x128x128, .f32⟩
  | .hbm, ⟨16, _⟩ => ⟨S1x32x128x128, .f32⟩
  | .hbm, ⟨17, _⟩ => ⟨S32x128x128, .f32⟩
  | .hbm, ⟨18, _⟩ => ⟨S32x1x128, .f32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S1x128x1, .i32⟩
  | .hbm, ⟨24, _⟩ => ⟨S1x128x1, .f32⟩
  | .hbm, ⟨25, _⟩ => ⟨S1x128x1, .f32⟩
  | .hbm, ⟨26, _⟩ => ⟨S32x128x128, .f32⟩
  | .hbm, ⟨27, _⟩ => ⟨S32x128x128, .f32⟩
  | .hbm, ⟨28, _⟩ => ⟨S32x128x128, .f32⟩
  | .hbm, ⟨29, _⟩ => ⟨S32x128x128, .f32⟩
  | .hbm, ⟨30, _⟩ => ⟨S32x128x128, .f32⟩
  | .hbm, ⟨31, _⟩ => ⟨S32x128x128, .f32⟩
  | .hbm, ⟨32, _⟩ => ⟨S32x1x128, .f32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S1x128x1, .i32⟩
  | .hbm, ⟨41, _⟩ => ⟨S1x128x1, .f32⟩
  | .hbm, ⟨42, _⟩ => ⟨S1x128x1, .f32⟩
  | .hbm, ⟨43, _⟩ => ⟨S32x128x128, .f32⟩
  | .hbm, ⟨44, _⟩ => ⟨S32x128x128, .f32⟩
  | .hbm, ⟨45, _⟩ => ⟨S32x128x128, .f32⟩
  | .hbm, ⟨46, _⟩ => ⟨S32x128x128, .f32⟩
  | .hbm, ⟨47, _⟩ => ⟨S32x128x128, .f32⟩
  | .hbm, ⟨48, _⟩ => ⟨S32x128x128, .f32⟩
  | .hbm, ⟨49, _⟩ => ⟨S32x128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S32x128x128, .i1⟩
  | .hbm, ⟨57, _⟩ => ⟨S_, .f32⟩
  | .hbm, ⟨58, _⟩ => ⟨S32x128x128, .f32⟩
  | .hbm, ⟨59, _⟩ => ⟨S32x128x128, .f32⟩
  | .hbm, ⟨60, _⟩ => ⟨S32x128x1, .f32⟩
  | .hbm, ⟨61, _⟩ => ⟨S32x128x1, .f32⟩
  | .hbm, ⟨62, _⟩ => ⟨S32x128x1, .f32⟩
  | .hbm, ⟨63, _⟩ => ⟨S32x128x1, .f32⟩
  | .hbm, ⟨64, _⟩ => ⟨S32x128x1, .f32⟩
  | .hbm, ⟨65, _⟩ => ⟨S32x128x1, .f32⟩
  | .hbm, ⟨66, _⟩ => ⟨S32x128x1, .f32⟩
  | .hbm, ⟨67, _⟩ => ⟨S32x128x1, .f32⟩
  | .hbm, ⟨68, _⟩ => ⟨S32x128x128, .f32⟩
  | .hbm, ⟨69, _⟩ => ⟨S32x128x128, .f32⟩
  | .hbm, ⟨70, _⟩ => ⟨S32x128x128, .f32⟩
  | .hbm, ⟨71, _⟩ => ⟨S32x128x128, .f32⟩
  | .hbm, ⟨72, _⟩ => ⟨S32x128x128, .f32⟩
  | .hbm, ⟨73, _⟩ => ⟨S32x128x128, .f32⟩
  | .hbm, ⟨74, _⟩ => ⟨S32x128x128, .f32⟩
  | .hbm, ⟨75, _⟩ => ⟨S_, .f32⟩
  | .hbm, ⟨76, _⟩ => ⟨S32x128x128, .f32⟩
  | .hbm, ⟨77, _⟩ => ⟨S32x128x128, .f32⟩
  | .hbm, ⟨78, _⟩ => ⟨S32x128x128, .f32⟩
  | .hbm, ⟨79, _⟩ => ⟨S_, .f32⟩
  | .hbm, ⟨80, _⟩ => ⟨S32x128x128, .f32⟩
  | .hbm, ⟨81, _⟩ => ⟨S32x128x128, .f32⟩
  | .hbm, ⟨82, _⟩ => ⟨S32x128x128, .f32⟩
  | .hbm, ⟨83, _⟩ => ⟨S_, .f32⟩
  | .hbm, ⟨84, _⟩ => ⟨S32x128x128, .f32⟩
  | .hbm, ⟨85, _⟩ => ⟨S32x128x128, .f32⟩
  | .hbm, ⟨86, _⟩ => ⟨S_, .f32⟩
  | .hbm, ⟨87, _⟩ => ⟨S32x128x128, .f32⟩
  | .hbm, ⟨88, _⟩ => ⟨S32x128x128, .f32⟩
  | .hbm, ⟨89, _⟩ => ⟨S32x128x128, .f32⟩
  | .hbm, ⟨90, _⟩ => ⟨S128x32x128, .f32⟩
  | .hbm, ⟨91, _⟩ => ⟨S128x4096, .f32⟩
  | .hbm, ⟨92, _⟩ => ⟨S32x128x128, .f32⟩
  | .hbm, ⟨93, _⟩ => ⟨S32x128x128, .f32⟩
  | .hbm, ⟨94, _⟩ => ⟨S32x128x128, .f32⟩
  | .hbm, ⟨95, _⟩ => ⟨S32x128x128, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_cst : Ref sig .tc := ⟨.hbm, 57, rfl⟩
abbrev main_call0_v6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_3 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  transposes_S12288x4096_S4096x12288_1_0 : S12288x4096.Transposes [1, 0] S4096x12288
  shapeCasts_S128x12288_S128x3x32x128 : S128x12288.ShapeCasts S128x3x32x128
  transposes_S128x3x32x128_S3x32x128x128_1_2_0_3 : S128x3x32x128.Transposes [1, 2, 0, 3] S3x32x128x128
  slices_S3x32x128x128_S1x32x128x128_0_0_0_0 : S3x32x128x128.Slices ![0, 0, 0, 0] S1x32x128x128
  shapeCasts_S1x32x128x128_S32x128x128 : S1x32x128x128.ShapeCasts S32x128x128
  slices_S3x32x128x128_S1x32x128x128_1_0_0_0 : S3x32x128x128.Slices ![1, 0, 0, 0] S1x32x128x128
  slices_S3x32x128x128_S1x32x128x128_2_0_0_0 : S3x32x128x128.Slices ![2, 0, 0, 0] S1x32x128x128
  bcast_S32x128_S32x1x128_0_2 : S32x128.BroadcastsInDim S32x1x128 (![0, 2] : Fin 2 → Fin S32x1x128.rank)
  bcast_S_S128 : S_.BroadcastsInDim S128 (![] : Fin 0 → Fin S128.rank)
  bcast_S128_S1x128x1_1 : S128.BroadcastsInDim S1x128x1 (![1] : Fin 1 → Fin S1x128x1.rank)
  bcast_S32x1x128_S32x128x128_0_1_2 : S32x1x128.BroadcastsInDim S32x128x128 (![0, 1, 2] : Fin 3 → Fin S32x128x128.rank)
  bcast_S1x128x1_S32x128x128_0_1_2 : S1x128x1.BroadcastsInDim S32x128x128 (![0, 1, 2] : Fin 3 → Fin S32x128x128.rank)
  bcast_S_S32x128x128 : S_.BroadcastsInDim S32x128x128 (![] : Fin 0 → Fin S32x128x128.rank)
  bcast_S_S128x128 : S_.BroadcastsInDim S128x128 (![] : Fin 0 → Fin S128x128.rank)
  bcast_S128x128_S32x128x128_1_2 : S128x128.BroadcastsInDim S32x128x128 (![1, 2] : Fin 2 → Fin S32x128x128.rank)
  bcast_S32x128_S32x128x1_0_1 : S32x128.BroadcastsInDim S32x128x1 (![0, 1] : Fin 2 → Fin S32x128x1.rank)
  bcast_S32x128x1_S32x128x128_0_1_2 : S32x128x1.BroadcastsInDim S32x128x128 (![0, 1, 2] : Fin 3 → Fin S32x128x128.rank)
  transposes_S32x128x128_S128x32x128_1_0_2 : S32x128x128.Transposes [1, 0, 2] S128x32x128
  shapeCasts_S128x32x128_S128x4096 : S128x32x128.ShapeCasts S128x4096
  dot_S128x4096_S4096x12288_S128x12288_1_0_0_1_n_n_wf : DotDims.WF S128x4096 S4096x12288 S128x12288 [1] [0] [0] [1] [] []
  dot_S32x128x128_S32x128x128_S32x128x128_2_2_1_1_0_0_wf : DotDims.WF S32x128x128 S32x128x128 S32x128x128 [2] [2] [1] [1] [0] [0]
  dot_S32x128x128_S32x128x128_S32x128x128_2_1_1_2_0_0_wf : DotDims.WF S32x128x128 S32x128x128 S32x128x128 [2] [1] [1] [2] [0] [0]
  dot_S32x128x128_S32x128x128_S32x128x128_1_1_2_2_0_0_wf : DotDims.WF S32x128x128 S32x128x128 S32x128x128 [1] [1] [2] [2] [0] [0]

variable [Facts₀]

def dot_S128x4096_S4096x12288_S128x12288_1_0_0_1_n_n : DotDims S128x4096 S4096x12288 S128x12288 where
  lhsContracting := [1]
  rhsContracting := [0]
  lhsNonContracting := [0]
  rhsNonContracting := [1]
  lhsBatch := []
  rhsBatch := []
  wf := dot_S128x4096_S4096x12288_S128x12288_1_0_0_1_n_n_wf
def dot_S32x128x128_S32x128x128_S32x128x128_2_2_1_1_0_0 : DotDims S32x128x128 S32x128x128 S32x128x128 where
  lhsContracting := [2]
  rhsContracting := [2]
  lhsNonContracting := [1]
  rhsNonContracting := [1]
  lhsBatch := [0]
  rhsBatch := [0]
  wf := dot_S32x128x128_S32x128x128_S32x128x128_2_2_1_1_0_0_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf
def dot_S32x128x128_S32x128x128_S32x128x128_1_1_2_2_0_0 : DotDims S32x128x128 S32x128x128 S32x128x128 where
  lhsContracting := [1]
  rhsContracting := [1]
  lhsNonContracting := [2]
  rhsNonContracting := [2]
  lhsBatch := [0]
  rhsBatch := [0]
  wf := dot_S32x128x128_S32x128x128_S32x128x128_1_1_2_2_0_0_wf

class Facts : Prop extends Facts₀ where

variable [Facts]
-- ==== Proof.KernelHost.lean ====
/-
  @main up to the region: the host operations that cast the token rows and compute the two decay tables and the
  decayed state from the decay rates, then the region; the buffers as the region finds them; no host operation
  writes an argument array.
-/
import proofs.«414871_j38585986187935_3_alg».proof.Proof.Gen.Kernel.Launch
import Idealize.ShloMosaic.Lib.Pipeline.Frame
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

end Cert.Kernel.Frame

end
-- ==== Proof.KernelOut.lean ====
/-
  What the body leaves in its two output buffers, as the canonical contents of its stores over the loaded input
  blocks: the output block (128 tokens by the two heads' 256 channels) is stored whole, the state block (two heads'
  128 × 128 states) in its two halves. The arithmetic is the skeleton's payloads.
-/
import proofs.«414871_j38585986187935_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX : Rect S128x4096 := Rect.unit (s := S128x4096) ![0, 0] S128x4096.size inb_S128x4096_S128x4096_0_0
abbrev rW : Rect S256x4096 := Rect.unit (s := S256x4096) ![0, 0] S256x4096.size inb_S256x4096_S256x4096_0_0
abbrev rG0 : Rect S2x128x128 := Rect.unit (s := S2x128x128) ![0, 0, 0] S1x128x128.size inb_S2x128x128_S1x128x128_0_0_0
abbrev rG1 : Rect S2x128x128 := Rect.unit (s := S2x128x128) ![1, 0, 0] S1x128x128.size inb_S2x128x128_S1x128x128_1_0_0
abbrev rO : Rect S128x256 := Rect.unit (s := S128x256) ![0, 0] S128x256.size inb_S128x256_S128x256_0_0

/-! ## What the body leaves in the two output buffers -/

/-- The output block (128 tokens by the two heads' 256 channels) after the body: its one store, over the loaded
    blocks — tokens `x0`, the three weight blocks `x1 x2 x3`, the decay tables `x4 x5` and the decayed state `x6`,
    the latter three read one head at a time. -/
def outBlock (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) : Vec F S128x256 .f32 :=
  View.canon [⟨rO, k0_pay2
    (k0_pay14 (k0_pay12 (View.ld x0 rX) (View.ld x1 rW) (View.ld x2 rW) (View.ld x3 rW) (View.ld x4 rG0) (View.ld x5 rG0))
      (k0_pay13 (View.ld x0 rX) (View.ld x1 rW) (View.ld x4 rG0) (View.ld x6 rG0)))
    (k0_pay17 (k0_pay4 (View.ld x0 rX) (View.ld x1 rW)) (View.ld x4 rG1))
    (k0_pay20 (k0_pay4 (View.ld x0 rX) (View.ld x1 rW)) (k0_pay5 (View.ld x0 rX) (View.ld x2 rW)) (k0_pay6 (View.ld x0 rX) (View.ld x3 rW)) k0_pay7 (View.ld x4 rG1) (View.ld x5 rG1))
    (k0_pay21 (View.ld x6 rG1))⟩]

/-- The state block (two heads' 128 × 128 states) after the body: its two stores, the second head's last. -/
def stateBlock (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) : Vec F S2x128x128 .f32 :=
  View.canon [⟨rG1, k0_pay1 (k0_pay16 (View.ld x6 rG1)) (k0_pay18 (k0_pay5 (View.ld x0 rX) (View.ld x2 rW)) (View.ld x5 rG1)) (k0_pay19 (k0_pay6 (View.ld x0 rX) (View.ld x3 rW)))⟩,
    ⟨rG0, k0_pay15 (k0_pay8 (View.ld x6 rG0)) (k0_pay10 (View.ld x0 rX) (View.ld x2 rW) (View.ld x5 rG0)) (k0_pay11 (View.ld x0 rX) (View.ld x3 rW))⟩]

/-- The one store covers the output buffer; -/
theorem coverOut (p0 : Vec F S128x256 .f32) (y : S128x256.Idx) :
    ∃ pc ∈ ([⟨rO, p0⟩] : List (View.Piece (Elt F) S128x256 .f32)), y ∈ pc.1.set :=
  View.cover_of_tiled [⟨rO, p0⟩] S128x256.size (by rfl) y

/-- the two stores tile the state buffer. -/
theorem coverState (p0 : Vec F S1x128x128 .f32) (p1 : Vec F S1x128x128 .f32) (y : S2x128x128.Idx) :
    ∃ pc ∈ ([⟨rG1, p0⟩, ⟨rG0, p1⟩] : List (View.Piece (Elt F) S2x128x128 .f32)), y ∈ pc.1.set :=
  View.cover_of_tiled [⟨rG1, p0⟩, ⟨rG0, p1⟩] S1x128x128.size (by rfl) y

end Cert.Kernel.Frame

end
-- ==== Proof.KernelFrame.lean ====
/-
  The frame of the fused retention kernel: every weakly fair execution of @main ends, nothing faults, and the
  argument arrays end as they were.

  @main is a line of host operations (the token rows cast, the two decay tables and the decayed state computed
  from the decay rates) and then one pipelined region over 16 grid points, two heads a point. The region's nine
  windows: the cast tokens (one block, fetched once), three windows ON ONE ARRAY — the stacked weight matrix read
  at block rows `t`, `t + 16` and `t + 32` for the query, key and value weights —, the two decay tables and the
  decayed state at block `t`, and the two results written back at block `t`. Since three input windows read one
  array, the array's full share is dealt among them in thirds at the region's entry, and each window holds its
  third through the run; the body never stores into an input, so a third is all it needs.

  The body loads each input block, computes, and stores the output block whole and the state block in its two
  halves; what it leaves in the two output buffers is the canonical contents of those stores over the loaded
  blocks. The run is the pipeline library's launch for a kernel with no semaphore of its own whose input windows
  may share an array.
-/
import proofs.«414871_j38585986187935_3_alg».proof.Proof.KernelHost
import proofs.«414871_j38585986187935_3_alg».proof.Proof.KernelOut
import proofs.«414871_j38585986187935_3_alg».proof.Proof.Gen.Kernel.Points

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    block index has not moved), for any proof data over the arrays as found whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The body on whole staging memrefs, the inputs' at read contents `xW` and the outputs' at anything, runs to the
    continuation holding the inputs' as they were and the outputs' at `outBlock` and `stateBlock` of the inputs'. -/
theorem sound_kernel (c : Dev nD) (E : Set ℕ) (i : grid0.Coords) (arg1 : Memref sig .tc .vmem S128x4096 .bf16) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S2x128x128 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S128x256 .f32) (harg8 : arg8.IsWhole) (arg9 : Memref sig .tc .vmem S2x128x128 .f32) (harg9 : arg9.IsWhole)
    (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6) ∗ owns (c : Thread nD τ) arg9 fullShare (stateBlock x0 x1 x2 x3 x4 x5 x6)) -∗ K ⟨⟩))
      ⊢ wp frame (wpE (defs₀ (F := F)) Variants.none c none) E (cc0_fused_retention_kernel i arg1 harg1 arg2 harg2 arg3 harg3 arg4 harg4 arg5 harg5 arg6 harg6 arg7 harg7 arg8 harg8 arg9 harg9) K := by
  simp only [cc0_fused_retention_kernel_eq_skeleton]; unfold cc0_fused_retention_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverOut _)
  iexists _; isplitr
  swap; · iexact H8
  ipureintro
  exact View.read_writes_eq_canon _ _ _ (coverState _ _)

/-! ## The pipeline's proof data -/

/-- The proof data on core `c`: the arrays as the region finds them; after the body each input's buffer at its block
    and the two outputs' at `outBlock` / `stateBlock` of the input blocks; the invariant the core's scoped buffers
    that are no staging buffer (there is none); nothing owed; the weight array's share in thirds among its three
    windows, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
    | ⟨8, _⟩ => stateBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = stateBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at the region's entry: the weight matrix dealt in thirds -/

/-- The buffers behind the nine windows' arrays are seven: the weight matrix is the array of three windows. -/
theorem arrRefs_eq : Finset.univ.image (Pipeline.arrRef spec0)
    = ([main_v0, main_arg1, main_v17, main_v26, main_v36, main_v37_0, main_v37_1] : List (Ref sig .tc)).toFinset := by decide

/-- The seven buffers conjoined one by one. -/
theorem bigSep_arrRefs {M : Type} [URA M] (Φ : Ref sig .tc → sProp M) :
    bigSep (Finset.univ.image (Pipeline.arrRef spec0)) Φ
      = iprop(Φ main_v0 ∗ Φ main_arg1 ∗ Φ main_v17 ∗ Φ main_v26 ∗ Φ main_v36 ∗ Φ main_v37_0 ∗ Φ main_v37_1) :=
  bigSep_eq_bigSepL_of_eq [main_v0, main_arg1, main_v17, main_v26, main_v36, main_v37_0, main_v37_1] arrRefs_eq (by decide) Φ

/-- The share each window holds its array at: an input's its own, an output's the full share. -/
theorem share_in (c : Dev nD) (w : Fin cfg0.W) (h : (cfg0.win w).isOut = false) : (dats m 0 c).share w = (dats m 0 c).q w := by
  unfold Dat.share; rw [h]; rfl
theorem share_out (c : Dev nD) (w : Fin cfg0.W) (h : (cfg0.win w).isOut = true) : (dats m 0 c).share w = fullShare := by
  unfold Dat.share; rw [h]; rfl
theorem share0_0 (c : Dev nD) : (dats m 0 c).share 0 = fullShare := (share_in m c 0 rfl).trans (by dsimp only [dats])
theorem share0_1 (c : Dev nD) : (dats m 0 c).share 1 = fullShare.left := (share_in m c 1 rfl).trans (by dsimp only [dats])
theorem share0_2 (c : Dev nD) : (dats m 0 c).share 2 = fullShare.right.left := (share_in m c 2 rfl).trans (by dsimp only [dats])
theorem share0_3 (c : Dev nD) : (dats m 0 c).share 3 = fullShare.right.right := (share_in m c 3 rfl).trans (by dsimp only [dats])
theorem share0_4 (c : Dev nD) : (dats m 0 c).share 4 = fullShare := (share_in m c 4 rfl).trans (by dsimp only [dats])
theorem share0_5 (c : Dev nD) : (dats m 0 c).share 5 = fullShare := (share_in m c 5 rfl).trans (by dsimp only [dats])
theorem share0_6 (c : Dev nD) : (dats m 0 c).share 6 = fullShare := (share_in m c 6 rfl).trans (by dsimp only [dats])
theorem share0_7 (c : Dev nD) : (dats m 0 c).share 7 = fullShare := share_out m c 7 rfl
theorem share0_8 (c : Dev nD) : (dats m 0 c).share 8 = fullShare := share_out m c 8 rfl

/-- A window's array at the region's entry, held at the window's share `q`: its buffer `b` at the contents found
    there. -/
theorem arr_entry (c : Dev nD) (w : Fin cfg0.W) (q : PosShare TreeShare) (b : Ref sig .tc) (hq : (dats m 0 c).share w = q)
    (hb : Pipeline.arrRef spec0 w = b) :
    ((cfg0.win w).arr.view.loc (c.tc : Thread nD τ) ↦[(cfg0.win w).arr.view.set]{(dats m 0 c).share w} (dats m 0 c).arrAt w 0 : sProp 𝕄)
      = (((c.tc : Thread nD τ).loc b) ↦{q} V m c b) := by
  subst hq hb
  rw [(arr_whole0 w).set_eq_univ]; rfl

/-- The seven buffers whole make the nine windows' arrays: the weight matrix's full share splits into a left half and
    the two halves of the right half, one for each of its windows; every other buffer goes to its one window whole. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_arrRefs, bigSep_W0]
  rw [arr_entry m c 0 fullShare main_v0 (share0_0 m c) rfl,
    arr_entry m c 1 (fullShare.left) main_arg1 (share0_1 m c) rfl,
    arr_entry m c 2 (fullShare.right.left) main_arg1 (share0_2 m c) rfl,
    arr_entry m c 3 (fullShare.right.right) main_arg1 (share0_3 m c) rfl,
    arr_entry m c 4 fullShare main_v17 (share0_4 m c) rfl,
    arr_entry m c 5 fullShare main_v26 (share0_5 m c) rfl,
    arr_entry m c 6 fullShare main_v36 (share0_6 m c) rfl,
    arr_entry m c 7 fullShare main_v37_0 (share0_7 m c) rfl,
    arr_entry m c 8 fullShare main_v37_1 (share0_8 m c) rfl]
  iintro ⟨H0, H1, H17, H26, H36, H7, H8⟩
  ihave Hs := (pointsTo_share (PosShare.mem_left_op_right fullShare)).1 $$ H1
  icases Hs with ⟨Ha, Hr⟩
  ihave Hs := (pointsTo_share (PosShare.mem_left_op_right fullShare.right)).1 $$ Hr
  icases Hs with ⟨Hb, Hc⟩
  isplitl [H0]; · iexact H0
  isplitl [Ha]; · iexact Ha
  isplitl [Hb]; · iexact Hb
  isplitl [Hc]; · iexact Hc
  isplitl [H17]; · iexact H17
  isplitl [H26]; · iexact H26
  isplitl [H36]; · iexact H36
  isplitl [H7]; · iexact H7
  iexact H8

/-! ## The run and the frame -/

set_option backward.isDefEq.respectTransparency.types false in
/-- From any memory with zero counters every weakly fair execution of @main ends; every array of the pipeline then
    holds what the write-backs of the proof data left, and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Frame.run_main' depends on axioms: [propext, Classical.choice, Quot.sound] -/
#guard_msgs in #print axioms run_main

/-- THE FRAME: the run ends and the four argument arrays end as launched — the tokens, the decay rates and the
    recurrent state are no window's array and bypass the region; the weight matrix is an input window's array, never
    written back; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Frame

end
-- ==== Proof.KHost.lean ====
/-
  @main up to the region: the host operations that cast the token rows and compute the two decay tables and the
  decayed state from the decay rates, then the region; the buffers as the region finds them; no host operation
  writes an argument array.
-/
import proofs.«414871_j38585986187935_3_alg».proof.Proof.Gen.KernelIdeal.Launch
import Idealize.ShloMosaic.Lib.Pipeline.Frame
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

end Cert.KernelIdeal.Frame

end
-- ==== Proof.KOut.lean ====
/-
  What the body leaves in its two output buffers, as the canonical contents of its stores over the loaded input
  blocks: the output block (128 tokens by the two heads' 256 channels) is stored whole, the state block (two heads'
  128 × 128 states) in its two halves. The arithmetic is the skeleton's payloads.
-/
import proofs.«414871_j38585986187935_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX : Rect S128x4096 := Rect.unit (s := S128x4096) ![0, 0] S128x4096.size inb_S128x4096_S128x4096_0_0
abbrev rW : Rect S256x4096 := Rect.unit (s := S256x4096) ![0, 0] S256x4096.size inb_S256x4096_S256x4096_0_0
abbrev rG0 : Rect S2x128x128 := Rect.unit (s := S2x128x128) ![0, 0, 0] S1x128x128.size inb_S2x128x128_S1x128x128_0_0_0
abbrev rG1 : Rect S2x128x128 := Rect.unit (s := S2x128x128) ![1, 0, 0] S1x128x128.size inb_S2x128x128_S1x128x128_1_0_0
abbrev rO : Rect S128x256 := Rect.unit (s := S128x256) ![0, 0] S128x256.size inb_S128x256_S128x256_0_0

/-! ## What the body leaves in the two output buffers -/

/-- The output block (128 tokens by the two heads' 256 channels) after the body: its one store, over the loaded
    blocks — tokens `x0`, the three weight blocks `x1 x2 x3`, the decay tables `x4 x5` and the decayed state `x6`,
    the latter three read one head at a time. -/
def outBlock (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) : Vec F S128x256 .f32 :=
  View.canon [⟨rO, k0_pay2
    (k0_pay14 (k0_pay12 (View.ld x0 rX) (View.ld x1 rW) (View.ld x2 rW) (View.ld x3 rW) (View.ld x4 rG0) (View.ld x5 rG0))
      (k0_pay13 (View.ld x0 rX) (View.ld x1 rW) (View.ld x4 rG0) (View.ld x6 rG0)))
    (k0_pay17 (k0_pay4 (View.ld x0 rX) (View.ld x1 rW)) (View.ld x4 rG1))
    (k0_pay20 (k0_pay4 (View.ld x0 rX) (View.ld x1 rW)) (k0_pay5 (View.ld x0 rX) (View.ld x2 rW)) (k0_pay6 (View.ld x0 rX) (View.ld x3 rW)) k0_pay7 (View.ld x4 rG1) (View.ld x5 rG1))
    (k0_pay21 (View.ld x6 rG1))⟩]

/-- The state block (two heads' 128 × 128 states) after the body: its two stores, the second head's last. -/
def stateBlock (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) : Vec F S2x128x128 .f32 :=
  View.canon [⟨rG1, k0_pay1 (k0_pay16 (View.ld x6 rG1)) (k0_pay18 (k0_pay5 (View.ld x0 rX) (View.ld x2 rW)) (View.ld x5 rG1)) (k0_pay19 (k0_pay6 (View.ld x0 rX) (View.ld x3 rW)))⟩,
    ⟨rG0, k0_pay15 (k0_pay8 (View.ld x6 rG0)) (k0_pay10 (View.ld x0 rX) (View.ld x2 rW) (View.ld x5 rG0)) (k0_pay11 (View.ld x0 rX) (View.ld x3 rW))⟩]

/-- The one store covers the output buffer; -/
theorem coverOut (p0 : Vec F S128x256 .f32) (y : S128x256.Idx) :
    ∃ pc ∈ ([⟨rO, p0⟩] : List (View.Piece (Elt F) S128x256 .f32)), y ∈ pc.1.set :=
  View.cover_of_tiled [⟨rO, p0⟩] S128x256.size (by rfl) y

/-- the two stores tile the state buffer. -/
theorem coverState (p0 : Vec F S1x128x128 .f32) (p1 : Vec F S1x128x128 .f32) (y : S2x128x128.Idx) :
    ∃ pc ∈ ([⟨rG1, p0⟩, ⟨rG0, p1⟩] : List (View.Piece (Elt F) S2x128x128 .f32)), y ∈ pc.1.set :=
  View.cover_of_tiled [⟨rG1, p0⟩, ⟨rG0, p1⟩] S1x128x128.size (by rfl) y

end Cert.KernelIdeal.Frame

end
-- ==== Proof.KFrame.lean ====
/-
  The frame of the fused retention kernel: every weakly fair execution of @main ends, nothing faults, and the
  argument arrays end as they were.

  @main is a line of host operations (the token rows cast, the two decay tables and the decayed state computed
  from the decay rates) and then one pipelined region over 16 grid points, two heads a point. The region's nine
  windows: the cast tokens (one block, fetched once), three windows ON ONE ARRAY — the stacked weight matrix read
  at block rows `t`, `t + 16` and `t + 32` for the query, key and value weights —, the two decay tables and the
  decayed state at block `t`, and the two results written back at block `t`. Since three input windows read one
  array, the array's full share is dealt among them in thirds at the region's entry, and each window holds its
  third through the run; the body never stores into an input, so a third is all it needs.

  The body loads each input block, computes, and stores the output block whole and the state block in its two
  halves; what it leaves in the two output buffers is the canonical contents of those stores over the loaded
  blocks. The run is the pipeline library's launch for a kernel with no semaphore of its own whose input windows
  may share an array.
-/
import proofs.«414871_j38585986187935_3_alg».proof.Proof.KHost
import proofs.«414871_j38585986187935_3_alg».proof.Proof.KOut
import proofs.«414871_j38585986187935_3_alg».proof.Proof.Gen.KernelIdeal.Points

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    block index has not moved), for any proof data over the arrays as found whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The body on whole staging memrefs, the inputs' at read contents `xW` and the outputs' at anything, runs to the
    continuation holding the inputs' as they were and the outputs' at `outBlock` and `stateBlock` of the inputs'. -/
theorem sound_kernel (c : Dev nD) (E : Set ℕ) (i : grid0.Coords) (arg1 : Memref sig .tc .vmem S128x4096 .bf16) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S2x128x128 .f32) (harg5 : arg5.IsWhole) (arg6 : Memref sig .tc .vmem S2x128x128 .f32) (harg6 : arg6.IsWhole) (arg7 : Memref sig .tc .vmem S2x128x128 .f32) (harg7 : arg7.IsWhole) (arg8 : Memref sig .tc .vmem S128x256 .f32) (harg8 : arg8.IsWhole) (arg9 : Memref sig .tc .vmem S2x128x128 .f32) (harg9 : arg9.IsWhole)
    (x0 : Vec F S128x4096 .bf16) (x1 : Vec F S256x4096 .f32) (x2 : Vec F S256x4096 .f32) (x3 : Vec F S256x4096 .f32) (x4 : Vec F S2x128x128 .f32) (x5 : Vec F S2x128x128 .f32) (x6 : Vec F S2x128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6) ∗ owns (c : Thread nD τ) arg9 fullShare (stateBlock x0 x1 x2 x3 x4 x5 x6)) -∗ K ⟨⟩))
      ⊢ wp frame (wpE (defs₀ (F := F)) Variants.none c none) E (cc0_fused_retention_kernel i arg1 harg1 arg2 harg2 arg3 harg3 arg4 harg4 arg5 harg5 arg6 harg6 arg7 harg7 arg8 harg8 arg9 harg9) K := by
  simp only [cc0_fused_retention_kernel_eq_skeleton]; unfold cc0_fused_retention_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverOut _)
  iexists _; isplitr
  swap; · iexact H8
  ipureintro
  exact View.read_writes_eq_canon _ _ _ (coverState _ _)

/-! ## The pipeline's proof data -/

/-- The proof data on core `c`: the arrays as the region finds them; after the body each input's buffer at its block
    and the two outputs' at `outBlock` / `stateBlock` of the input blocks; the invariant the core's scoped buffers
    that are no staging buffer (there is none); nothing owed; the weight array's share in thirds among its three
    windows, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
    | ⟨8, _⟩ => stateBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = stateBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The arrays at the region's entry: the weight matrix dealt in thirds -/

/-- The buffers behind the nine windows' arrays are seven: the weight matrix is the array of three windows. -/
theorem arrRefs_eq : Finset.univ.image (Pipeline.arrRef spec0)
    = ([main_v0, main_arg1, main_v17, main_v26, main_v36, main_v37_0, main_v37_1] : List (Ref sig .tc)).toFinset := by decide

/-- The seven buffers conjoined one by one. -/
theorem bigSep_arrRefs {M : Type} [URA M] (Φ : Ref sig .tc → sProp M) :
    bigSep (Finset.univ.image (Pipeline.arrRef spec0)) Φ
      = iprop(Φ main_v0 ∗ Φ main_arg1 ∗ Φ main_v17 ∗ Φ main_v26 ∗ Φ main_v36 ∗ Φ main_v37_0 ∗ Φ main_v37_1) :=
  bigSep_eq_bigSepL_of_eq [main_v0, main_arg1, main_v17, main_v26, main_v36, main_v37_0, main_v37_1] arrRefs_eq (by decide) Φ

/-- The share each window holds its array at: an input's its own, an output's the full share. -/
theorem share_in (c : Dev nD) (w : Fin cfg0.W) (h : (cfg0.win w).isOut = false) : (dats m 0 c).share w = (dats m 0 c).q w := by
  unfold Dat.share; rw [h]; rfl
theorem share_out (c : Dev nD) (w : Fin cfg0.W) (h : (cfg0.win w).isOut = true) : (dats m 0 c).share w = fullShare := by
  unfold Dat.share; rw [h]; rfl
theorem share0_0 (c : Dev nD) : (dats m 0 c).share 0 = fullShare := (share_in m c 0 rfl).trans (by dsimp only [dats])
theorem share0_1 (c : Dev nD) : (dats m 0 c).share 1 = fullShare.left := (share_in m c 1 rfl).trans (by dsimp only [dats])
theorem share0_2 (c : Dev nD) : (dats m 0 c).share 2 = fullShare.right.left := (share_in m c 2 rfl).trans (by dsimp only [dats])
theorem share0_3 (c : Dev nD) : (dats m 0 c).share 3 = fullShare.right.right := (share_in m c 3 rfl).trans (by dsimp only [dats])
theorem share0_4 (c : Dev nD) : (dats m 0 c).share 4 = fullShare := (share_in m c 4 rfl).trans (by dsimp only [dats])
theorem share0_5 (c : Dev nD) : (dats m 0 c).share 5 = fullShare := (share_in m c 5 rfl).trans (by dsimp only [dats])
theorem share0_6 (c : Dev nD) : (dats m 0 c).share 6 = fullShare := (share_in m c 6 rfl).trans (by dsimp only [dats])
theorem share0_7 (c : Dev nD) : (dats m 0 c).share 7 = fullShare := share_out m c 7 rfl
theorem share0_8 (c : Dev nD) : (dats m 0 c).share 8 = fullShare := share_out m c 8 rfl

/-- A window's array at the region's entry, held at the window's share `q`: its buffer `b` at the contents found
    there. -/
theorem arr_entry (c : Dev nD) (w : Fin cfg0.W) (q : PosShare TreeShare) (b : Ref sig .tc) (hq : (dats m 0 c).share w = q)
    (hb : Pipeline.arrRef spec0 w = b) :
    ((cfg0.win w).arr.view.loc (c.tc : Thread nD τ) ↦[(cfg0.win w).arr.view.set]{(dats m 0 c).share w} (dats m 0 c).arrAt w 0 : sProp 𝕄)
      = (((c.tc : Thread nD τ).loc b) ↦{q} V m c b) := by
  subst hq hb
  rw [(arr_whole0 w).set_eq_univ]; rfl

/-- The seven buffers whole make the nine windows' arrays: the weight matrix's full share splits into a left half and
    the two halves of the right half, one for each of its windows; every other buffer goes to its one window whole. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_arrRefs, bigSep_W0]
  rw [arr_entry m c 0 fullShare main_v0 (share0_0 m c) rfl,
    arr_entry m c 1 (fullShare.left) main_arg1 (share0_1 m c) rfl,
    arr_entry m c 2 (fullShare.right.left) main_arg1 (share0_2 m c) rfl,
    arr_entry m c 3 (fullShare.right.right) main_arg1 (share0_3 m c) rfl,
    arr_entry m c 4 fullShare main_v17 (share0_4 m c) rfl,
    arr_entry m c 5 fullShare main_v26 (share0_5 m c) rfl,
    arr_entry m c 6 fullShare main_v36 (share0_6 m c) rfl,
    arr_entry m c 7 fullShare main_v37_0 (share0_7 m c) rfl,
    arr_entry m c 8 fullShare main_v37_1 (share0_8 m c) rfl]
  iintro ⟨H0, H1, H17, H26, H36, H7, H8⟩
  ihave Hs := (pointsTo_share (PosShare.mem_left_op_right fullShare)).1 $$ H1
  icases Hs with ⟨Ha, Hr⟩
  ihave Hs := (pointsTo_share (PosShare.mem_left_op_right fullShare.right)).1 $$ Hr
  icases Hs with ⟨Hb, Hc⟩
  isplitl [H0]; · iexact H0
  isplitl [Ha]; · iexact Ha
  isplitl [Hb]; · iexact Hb
  isplitl [Hc]; · iexact Hc
  isplitl [H17]; · iexact H17
  isplitl [H26]; · iexact H26
  isplitl [H36]; · iexact H36
  isplitl [H7]; · iexact H7
  iexact H8

/-! ## The run and the frame -/

set_option backward.isDefEq.respectTransparency.types false in
/-- From any memory with zero counters every weakly fair execution of @main ends; every array of the pipeline then
    holds what the write-backs of the proof data left, and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Frame.run_main' depends on axioms: [propext, Classical.choice, Quot.sound] -/
#guard_msgs in #print axioms run_main

/-- THE FRAME: the run ends and the four argument arrays end as launched — the tokens, the decay rates and the
    recurrent state are no window's array and bypass the region; the weight matrix is an input window's array, never
    written back; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Frame

end
-- ==== Proof.Spec.lean ====
/-
  The mathematics both programs compute, one attention head at a time, over the extended reals.

  For one head the inputs are the token rows `x` (128 rows of 4096 features), three blocks of 128 weight rows
  (query, key and value weights), two decay tables `pq`, `pk` (a factor per token and channel) and the decayed
  recurrent state `kd` (128 by 128). The head projects the tokens on the three weight blocks, scales the query and
  key projections entry by entry by the decay tables, scores each token against the tokens before it (zero above
  the diagonal), mixes the value rows by the scores, adds the query read against the recurrent state, and applies
  the tanh form of gelu. The new recurrent state is the decayed state plus the keys contracted with the values over
  the tokens. Every sum is a finite sum of products in the order written here; nothing here uses a law of
  arithmetic.

  The whole arrays are the heads side by side: output column `n` is channel `n % 128` of head `n / 128`, and head
  `h` reads weight rows `h * 128 + d` of each third of the stacked weight matrix.
-/
import Idealize.ShloMosaic.PureOps.Ideal
import Idealize.ShloMosaic.Lib.ValueIdx

noncomputable section

namespace Cert.Retention

open Idealize.ShloMosaic Idealize.ShloMosaic.ValueIdx

/-- A table of extended reals with `a` rows and `b` columns. -/
abbrev Tab (a b : Nat) : Type := Fin a → Fin b → EReal

/-- The projection of the rows of `x` on the rows of `w`: entry `(s, d)` is the inner product of row `s` of `x`
    with row `d` of `w`, summed over the 4096 features in order. -/
def proj (x w : Tab 128 4096) : Tab 128 128 := fun s d => ∑ k : Fin 4096, x s k * w d k

/-- A projection scaled entry by entry by a decay table. -/
def scaled (x w : Tab 128 4096) (p : Tab 128 128) : Tab 128 128 := fun s d => proj x w s d * p s d

/-- The causal scores: token `i` against token `j`, the scaled queries of `i` against the scaled keys of `j`
    summed over the channels, and zero where `j` comes after `i`. -/
def score (x wq wk : Tab 128 4096) (pq pk : Tab 128 128) : Tab 128 128 := fun i j =>
  if j ≤ i then ∑ d : Fin 128, scaled x wq pq i d * scaled x wk pk j d else 0

/-- What gelu is applied to: the value rows mixed by the scores, plus the scaled queries read against the
    decayed state. -/
def mixed (x wq wk wv : Tab 128 4096) (pq pk kd : Tab 128 128) : Tab 128 128 := fun s e =>
  (∑ j : Fin 128, score x wq wk pq pk s j * proj x wv j e) + ∑ d : Fin 128, scaled x wq pq s d * kd d e

/-- The tanh form of gelu, `u · (1/2 · (1 + tanh (c₂ · (u + c₁ · (u · (u · u))))))`, its four constants the f32 words
    both programs print (1/2, 1, 0.797884583, 0.044715). -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- One head's output: token `s`, channel `e`. -/
def headOut (x wq wk wv : Tab 128 4096) (pq pk kd : Tab 128 128) : Tab 128 128 := fun s e =>
  gelu (mixed x wq wk wv pq pk kd s e)

/-- One head's new recurrent state: the decayed state plus the scaled keys contracted with the values over the
    tokens. -/
def headState (x wk wv : Tab 128 4096) (pk kd : Tab 128 128) : Tab 128 128 := fun d e =>
  kd d e + ∑ s : Fin 128, scaled x wk pk s d * proj x wv s e

/-! ## The whole arrays -/

/-- The rows of a 128 × 4096 array. -/
def rows (x : FVec Ideal ⟨2, ![128, 4096]⟩ .f32) : Tab 128 4096 := fun s k => x (ix2 s k)

/-- The 128 weight rows head `h` reads in the third of the stacked weights that starts at row `base`. -/
def wrows (W : FVec Ideal ⟨2, ![12288, 4096]⟩ .f32) (base : Nat) (hb : base + 4096 ≤ 12288) (h : Fin 32) : Tab 128 4096 :=
  fun d k => W (ix2 ⟨base + h.val * 128 + d.val, by have := h.isLt; have := d.isLt; omega⟩ k)

/-- Head `h`'s 128 × 128 slab of a 32 × 128 × 128 array. -/
def slab (T : FVec Ideal ⟨3, ![32, 128, 128]⟩ .f32) (h : Fin 32) : Tab 128 128 := fun a b => T (ix3 h a b)

/-- The head a column of the output belongs to, and the channel within it. -/
def headOf (n : Fin 4096) : Fin 32 := ⟨n.val / 128, by have := n.isLt; omega⟩
def chanOf (n : Fin 4096) : Fin 128 := ⟨n.val % 128, Nat.mod_lt _ (by decide)⟩

/-- The output array: the heads' outputs side by side along the columns. -/
def outArr (x : FVec Ideal ⟨2, ![128, 4096]⟩ .f32) (W : FVec Ideal ⟨2, ![12288, 4096]⟩ .f32)
    (pq pk kd : FVec Ideal ⟨3, ![32, 128, 128]⟩ .f32) : FVec Ideal ⟨2, ![128, 4096]⟩ .f32 := fun i =>
  headOut (rows x) (wrows W 0 (by decide) (headOf (i 1))) (wrows W 4096 (by decide) (headOf (i 1))) (wrows W 8192 (by decide) (headOf (i 1)))
    (slab pq (headOf (i 1))) (slab pk (headOf (i 1))) (slab kd (headOf (i 1))) (i 0) (chanOf (i 1))

/-- The new recurrent state: head `i 0`'s. -/
def stateArr (x : FVec Ideal ⟨2, ![128, 4096]⟩ .f32) (W : FVec Ideal ⟨2, ![12288, 4096]⟩ .f32)
    (pk kd : FVec Ideal ⟨3, ![32, 128, 128]⟩ .f32) : FVec Ideal ⟨3, ![32, 128, 128]⟩ .f32 := fun i =>
  headState (rows x) (wrows W 4096 (by decide) (i 0)) (wrows W 8192 (by decide) (i 0)) (slab pk (i 0)) (slab kd (i 0)) (i 1) (i 2)

end Cert.Retention

end
-- ==== Proof.KBlockParts.lean ====
/-
  The skeleton's payloads of the retention body read at an index, at the ideal instance: the three projections
  of the token block on a 256-row weight block are inner products over the 4096 features; the scaled queries and
  keys of a head are a projection times a decay entry; a head's values are a projection; the causal mask is
  `j ≤ i`; a load through one head's half of a two-head block reads that head's slab.
-/
import proofs.«414871_j38585986187935_3_alg».proof.Proof.KOut
import proofs.«414871_j38585986187935_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Block

open Cert.KernelIdeal Cert.KernelIdeal.Gen Cert.KernelIdeal.Frame Cert.Retention
open Idealize.ShloMosaic Idealize.ShloMosaic.ValueIdx

/-- The rows of the token block. -/
def xRows (x0 : Vec Ideal S128x4096 .bf16) : Tab 128 4096 := fun s k => x0 (ix2 s k)
/-- The 128 rows of head `g` (of the block's two) in a 256-row weight block. -/
def wRows (w : Vec Ideal S256x4096 .f32) (g : Fin 2) : Tab 128 4096 :=
  fun d k => w (ix2 ⟨g.val * 128 + d.val, by have := g.isLt; have := d.isLt; omega⟩ k)
/-- Head `g`'s slab of a two-head block. -/
def gSlab (T : Vec Ideal S2x128x128 .f32) (g : Fin 2) : Tab 128 128 := fun a b => T (ix3 g a b)
/-- A one-head vector as a table. -/
def oneSlab (T : Vec Ideal S1x128x128 .f32) : Tab 128 128 := fun a b => T (ix3 0 a b)
/-- Column `g * 128 + e` of a 128 × 256 vector. -/
abbrev col (g : Fin 2) (e : Fin 128) : Fin 256 := ⟨g.val * 128 + e.val, by have := g.isLt; have := e.isLt; omega⟩

/-! ## Loads -/
theorem ld_tokens (x0 : Vec Ideal S128x4096 .bf16) (s : Fin 128) (k : Fin 4096) : View.ld x0 rX (ix2 s k) = x0 (ix2 s k) := by
  show x0 (rX.idx (ix2 s k)) = x0 (ix2 s k)
  refine congrArg x0 (funext fun a => Fin.ext ?_)
  match a with
  | ⟨0, _⟩ => show 0 + 1 * s.val = s.val; omega
  | ⟨1, _⟩ => show 0 + 1 * k.val = k.val; omega
theorem ld_weights (w : Vec Ideal S256x4096 .f32) (n : Fin 256) (k : Fin 4096) : View.ld w rW (ix2 n k) = w (ix2 n k) := by
  show w (rW.idx (ix2 n k)) = w (ix2 n k)
  refine congrArg w (funext fun a => Fin.ext ?_)
  match a with
  | ⟨0, _⟩ => show 0 + 1 * n.val = n.val; omega
  | ⟨1, _⟩ => show 0 + 1 * k.val = k.val; omega
theorem ld_head0 (T : Vec Ideal S2x128x128 .f32) (a b : Fin 128) : View.ld T rG0 (ix3 0 a b) = T (ix3 0 a b) := by
  show T (rG0.idx (ix3 0 a b)) = T (ix3 0 a b)
  refine congrArg T (funext fun c => Fin.ext ?_)
  match c with
  | ⟨0, _⟩ => show 0 + 1 * 0 = 0; omega
  | ⟨1, _⟩ => show 0 + 1 * a.val = a.val; omega
  | ⟨2, _⟩ => show 0 + 1 * b.val = b.val; omega
theorem ld_head1 (T : Vec Ideal S2x128x128 .f32) (a b : Fin 128) : View.ld T rG1 (ix3 0 a b) = T (ix3 1 a b) := by
  show T (rG1.idx (ix3 0 a b)) = T (ix3 1 a b)
  refine congrArg T (funext fun c => Fin.ext ?_)
  match c with
  | ⟨0, _⟩ => show 1 + 1 * 0 = 1; omega
  | ⟨1, _⟩ => show 0 + 1 * a.val = a.val; omega
  | ⟨2, _⟩ => show 0 + 1 * b.val = b.val; omega

/-! ## The projections -/

/-- The left operand's row axis is the result's row axis; -/
theorem lhs_proj_0 (i : S128x256.Idx) (q : dot_S128x4096_S256x4096_S128x256_1_1_0_0_n_n.contr.Idx) :
    (dot_S128x4096_S256x4096_S128x256_1_1_0_0_n_n.lhsIdx i q 0).val = (i 0).val := by
  unfold DotDims.lhsIdx
  rw [dif_neg (show ¬(0 : Fin S128x4096.rank) ∈ dot_S128x4096_S256x4096_S128x256_1_1_0_0_n_n.lhsBatch by decide), dif_pos (show (0 : Fin S128x4096.rank) ∈ dot_S128x4096_S256x4096_S128x256_1_1_0_0_n_n.lhsNonContracting by decide)]
  rfl
/-- its feature axis is the contracted one; -/
theorem lhs_proj_1 (i : S128x256.Idx) (q : dot_S128x4096_S256x4096_S128x256_1_1_0_0_n_n.contr.Idx) :
    (dot_S128x4096_S256x4096_S128x256_1_1_0_0_n_n.lhsIdx i q 1).val = (q ⟨0, by decide⟩).val :=
  dot_S128x4096_S256x4096_S128x256_1_1_0_0_n_n.lhsIdx_val_of_single rfl i q
/-- the right operand's row axis is the result's column axis; -/
theorem rhs_proj_0 (i : S128x256.Idx) (q : dot_S128x4096_S256x4096_S128x256_1_1_0_0_n_n.contr.Idx) :
    (dot_S128x4096_S256x4096_S128x256_1_1_0_0_n_n.rhsIdx i q 0).val = (i 1).val := by
  unfold DotDims.rhsIdx
  rw [dif_neg (show ¬(0 : Fin S256x4096.rank) ∈ dot_S128x4096_S256x4096_S128x256_1_1_0_0_n_n.rhsBatch by decide), dif_pos (show (0 : Fin S256x4096.rank) ∈ dot_S128x4096_S256x4096_S128x256_1_1_0_0_n_n.rhsNonContracting by decide)]
  rfl
/-- and its feature axis is the contracted one. -/
theorem rhs_proj_1 (i : S128x256.Idx) (q : dot_S128x4096_S256x4096_S128x256_1_1_0_0_n_n.contr.Idx) :
    (dot_S128x4096_S256x4096_S128x256_1_1_0_0_n_n.rhsIdx i q 1).val = (q ⟨0, by decide⟩).val :=
  dot_S128x4096_S256x4096_S128x256_1_1_0_0_n_n.rhsIdx_val_of_single rfl i q

/-- A token block against a 256-row block, contracted over the features into the zero accumulator: the entry at token
    row s and weight row n is the inner product of the two rows, summed over the 4096 features in order. -/
theorem matmul_proj_apply (x : FVec Ideal S128x4096 .bf16) (w : FVec Ideal S256x4096 .bf16) (s : Fin 128) (n : Fin 256) :
    matmul (F := Ideal) dot_S128x4096_S256x4096_S128x256_1_1_0_0_n_n none x w (constant (F := Ideal) S128x256 .f32 0x00000000#32) (ix2 s n)
      = ∑ k : Fin 4096, x (ix2 s k) * w (ix2 n k) := by
  show FloatOps.matmul dot_S128x4096_S256x4096_S128x256_1_1_0_0_n_n none x w (constant (F := Ideal) S128x256 .f32 0x00000000#32) (ix2 s n) = _
  rw [Ideal.matmul_constant_zero_apply, ← Equiv.sum_comp (ValueIdx.contrEquiv1 dot_S128x4096_S256x4096_S128x256_1_1_0_0_n_n 4096 rfl rfl).symm]
  refine Finset.sum_congr rfl fun k _ => ?_
  have hk := ValueIdx.contrEquiv1_symm_val dot_S128x4096_S256x4096_S128x256_1_1_0_0_n_n 4096 rfl rfl k
  have el : dot_S128x4096_S256x4096_S128x256_1_1_0_0_n_n.lhsIdx (ix2 s n) ((ValueIdx.contrEquiv1 dot_S128x4096_S256x4096_S128x256_1_1_0_0_n_n 4096 rfl rfl).symm k) = ix2 s k := funext fun a => Fin.ext (by
    match a with
    | ⟨0, _⟩ => exact lhs_proj_0 _ _
    | ⟨1, _⟩ => exact (lhs_proj_1 _ _).trans hk)
  have er : dot_S128x4096_S256x4096_S128x256_1_1_0_0_n_n.rhsIdx (ix2 s n) ((ValueIdx.contrEquiv1 dot_S128x4096_S256x4096_S128x256_1_1_0_0_n_n 4096 rfl rfl).symm k) = ix2 n k := funext fun a => Fin.ext (by
    match a with
    | ⟨0, _⟩ => exact rhs_proj_0 _ _
    | ⟨1, _⟩ => exact (rhs_proj_1 _ _).trans hk)
  rw [el, er]

theorem pay4_apply (v0 : Vec Ideal S128x4096 .bf16) (v2 : Vec Ideal S256x4096 .f32) (s : Fin 128) (g : Fin 2) (d : Fin 128) :
    k0_pay4 (F := Ideal) v0 v2 (ix2 s (col g d)) = proj (xRows v0) (wRows v2 g) s d := by
  unfold k0_pay4 k0_pay3
  refine (matmul_proj_apply _ _ s (col g d)).trans ?_
  rw [shapeCast_self]
  rfl
theorem pay5_apply (v0 : Vec Ideal S128x4096 .bf16) (v5 : Vec Ideal S256x4096 .f32) (s : Fin 128) (g : Fin 2) (d : Fin 128) :
    k0_pay5 (F := Ideal) v0 v5 (ix2 s (col g d)) = proj (xRows v0) (wRows v5 g) s d := by
  unfold k0_pay5 k0_pay3
  refine (matmul_proj_apply _ _ s (col g d)).trans ?_
  rw [shapeCast_self]
  rfl
theorem pay6_apply (v0 : Vec Ideal S128x4096 .bf16) (v8 : Vec Ideal S256x4096 .f32) (s : Fin 128) (g : Fin 2) (d : Fin 128) :
    k0_pay6 (F := Ideal) v0 v8 (ix2 s (col g d)) = proj (xRows v0) (wRows v8 g) s d := by
  unfold k0_pay6 k0_pay3
  refine (matmul_proj_apply _ _ s (col g d)).trans ?_
  rw [shapeCast_self]
  rfl

/-! ## Layout operations of the body read at an index -/

/-- The first head's 128 columns of a 128 × 256 vector. -/
theorem slice0_apply (v : FVec Ideal S128x256 .f32) (s d : Fin 128) :
    extractStridedSlice S128x128 ![0, 0] v slices_S128x256_o0_0_S128x128 (ix2 s d) = v (ix2 s (col 0 d)) :=
  extractStridedSlice_apply ![0, 0] v slices_S128x256_o0_0_S128x128 (ix2 s d) (ix2 s (col 0 d)) (fun a => by
    match a with
    | ⟨0, _⟩ => show s.val = 0 + s.val; omega
    | ⟨1, _⟩ => show 0 * 128 + d.val = 0 + d.val; omega)
/-- The second head's 128 columns. -/
theorem slice1_apply (v : FVec Ideal S128x256 .f32) (s d : Fin 128) :
    extractStridedSlice S128x128 ![0, 128] v slices_S128x256_o0_128_S128x128 (ix2 s d) = v (ix2 s (col 1 d)) :=
  extractStridedSlice_apply ![0, 128] v slices_S128x256_o0_128_S128x128 (ix2 s d) (ix2 s (col 1 d)) (fun a => by
    match a with
    | ⟨0, _⟩ => show s.val = 0 + s.val; omega
    | ⟨1, _⟩ => show 1 * 128 + d.val = 128 + d.val; omega)
/-- A one-head slab viewed as a 128 × 128 table. -/
theorem unslab_apply (v : Vec Ideal S1x128x128 .f32) (a b : Fin 128) :
    shapeCast S128x128 v shapeCasts_S1x128x128_S128x128 (ix2 a b) = v (ix3 0 a b) :=
  shapeCast_apply v shapeCasts_S1x128x128_S128x128 (ix2 a b) (ix3 0 a b) (by
    rw [Shape.rowMajor_val_three, Shape.rowMajor_val_two]
    show (0 * 128 + a.val) * 128 + b.val = a.val * 128 + b.val
    omega)

/-! ## The first head's scaled queries and keys, and its values -/
theorem pay9_apply (v0 : Vec Ideal S128x4096 .bf16) (v2 : Vec Ideal S256x4096 .f32) (v17 : Vec Ideal S1x128x128 .f32) (s d : Fin 128) :
    k0_pay9 (F := Ideal) v0 v2 v17 (ix2 s d) = scaled (xRows v0) (wRows v2 0) (oneSlab v17) s d := by
  unfold k0_pay9
  show extractStridedSlice S128x128 ![0, 0] (k0_pay4 (F := Ideal) v0 v2) slices_S128x256_o0_0_S128x128 (ix2 s d)
      * shapeCast S128x128 v17 shapeCasts_S1x128x128_S128x128 (ix2 s d) = _
  rw [slice0_apply, unslab_apply, pay4_apply]
  rfl
theorem pay10_apply (v0 : Vec Ideal S128x4096 .bf16) (v5 : Vec Ideal S256x4096 .f32) (v19 : Vec Ideal S1x128x128 .f32) (s d : Fin 128) :
    k0_pay10 (F := Ideal) v0 v5 v19 (ix2 s d) = scaled (xRows v0) (wRows v5 0) (oneSlab v19) s d := by
  unfold k0_pay10
  show extractStridedSlice S128x128 ![0, 0] (k0_pay5 (F := Ideal) v0 v5) slices_S128x256_o0_0_S128x128 (ix2 s d)
      * shapeCast S128x128 v19 shapeCasts_S1x128x128_S128x128 (ix2 s d) = _
  rw [slice0_apply, unslab_apply, pay5_apply]
  rfl
theorem pay11_apply (v0 : Vec Ideal S128x4096 .bf16) (v8 : Vec Ideal S256x4096 .f32) (s d : Fin 128) :
    k0_pay11 (F := Ideal) v0 v8 (ix2 s d) = proj (xRows v0) (wRows v8 0) s d := by
  unfold k0_pay11
  show extractStridedSlice S128x128 ![0, 0] (k0_pay6 (F := Ideal) v0 v8) slices_S128x256_o0_0_S128x128 (ix2 s d) = _
  rw [slice0_apply, pay6_apply]

/-! ## The second head's, over the projections already computed -/
theorem pay17_apply (v4 : FVec Ideal S128x256 .f32) (v57 : Vec Ideal S1x128x128 .f32) (s d : Fin 128) :
    k0_pay17 (F := Ideal) v4 v57 (ix2 s d) = v4 (ix2 s (col 1 d)) * v57 (ix3 0 s d) := by
  unfold k0_pay17
  show extractStridedSlice S128x128 ![0, 128] v4 slices_S128x256_o0_128_S128x128 (ix2 s d)
      * shapeCast S128x128 v57 shapeCasts_S1x128x128_S128x128 (ix2 s d) = _
  rw [slice1_apply, unslab_apply]
theorem pay18_apply (v7 : FVec Ideal S128x256 .f32) (v59 : Vec Ideal S1x128x128 .f32) (s d : Fin 128) :
    k0_pay18 (F := Ideal) v7 v59 (ix2 s d) = v7 (ix2 s (col 1 d)) * v59 (ix3 0 s d) := by
  unfold k0_pay18
  show extractStridedSlice S128x128 ![0, 128] v7 slices_S128x256_o0_128_S128x128 (ix2 s d)
      * shapeCast S128x128 v59 shapeCasts_S1x128x128_S128x128 (ix2 s d) = _
  rw [slice1_apply, unslab_apply]
theorem pay19_apply (v10 : FVec Ideal S128x256 .f32) (s d : Fin 128) :
    k0_pay19 (F := Ideal) v10 (ix2 s d) = v10 (ix2 s (col 1 d)) := by
  unfold k0_pay19
  show extractStridedSlice S128x128 ![0, 128] v10 slices_S128x256_o0_128_S128x128 (ix2 s d) = _
  rw [slice1_apply]

/-! ## The decayed state's slabs, and the mask -/
theorem pay8_apply (v21 : Vec Ideal S1x128x128 .f32) (a b : Fin 128) : k0_pay8 (F := Ideal) v21 (ix2 a b) = v21 (ix3 0 a b) := by
  unfold k0_pay8
  exact unslab_apply v21 a b
theorem pay16_apply (v61 : Vec Ideal S1x128x128 .f32) (a b : Fin 128) : k0_pay16 (F := Ideal) v61 (ix2 a b) = v61 (ix3 0 a b) := by
  unfold k0_pay16
  exact unslab_apply v61 a b
theorem pay21_apply (v61 : Vec Ideal S1x128x128 .f32) (a b : Fin 128) : k0_pay21 (F := Ideal) v61 (ix2 a b) = v61 (ix3 0 a b) := by
  unfold k0_pay21
  exact pay16_apply v61 a b
/-- The causal mask: set where the column is no later than the row. -/
theorem pay7_apply (i j : Fin 128) : k0_pay7 (ix2 i j) = if j ≤ i then 1#1 else 0#1 := by
  unfold k0_pay7
  show IntOp.cmpi .sge (iota .tc S128x128 32 [0] iota_S128x128_d0_w32 (ix2 i j)) (iota .tc S128x128 32 [1] iota_S128x128_d1_w32 (ix2 i j)) = _
  rw [iota_single_apply, iota_single_apply]
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have key : IntOp.cmpi .sge (BitVec.ofNat 32 i.val) (BitVec.ofNat 32 j.val) = 1#1 ↔ j ≤ i := by
    rw [StableHlo.Predicate.sge_iff_toNat (by rw [hi]; have := i.isLt; omega) (by rw [hj]; have := j.isLt; omega), hi, hj]
    exact Fin.le_def.symm
  by_cases h : j ≤ i
  · rw [if_pos h]; exact key.mpr h
  · rw [if_neg h]; exact eq_zero_of_ne_one (fun h1 => h (key.mp h1))

end Cert.KernelIdeal.Block

end
-- ==== Proof.KBlockOut.lean ====
/-
  The output block the body leaves, read at an index: column `g * 128 + e` of token `s` is head `g`'s output at
  token `s`, channel `e` — the causal scores mixed with the values, plus the scaled queries against the decayed
  state, under gelu.
-/
import proofs.«414871_j38585986187935_3_alg».proof.Proof.KBlockParts

set_option maxRecDepth 16384

noncomputable section

namespace Cert.KernelIdeal.Block

open Cert.KernelIdeal Cert.KernelIdeal.Gen Cert.KernelIdeal.Frame Cert.Retention
open Idealize.ShloMosaic Idealize.ShloMosaic.ValueIdx

/-- The gelu chain over a sum of two tables is the specification's gelu, entry by entry. -/
theorem pay14_apply (v32 v34 : FVec Ideal S128x128 .f32) (j : S128x128.Idx) :
    k0_pay14 (F := Ideal) v32 v34 j = gelu (v32 j + v34 j) := rfl

/-! ## The contraction of the second axes -/
theorem lhs_rr_0 (i : S128x128.Idx) (q : dot_S128x128_S128x128_S128x128_1_1_0_0_n_n.contr.Idx) :
    (dot_S128x128_S128x128_S128x128_1_1_0_0_n_n.lhsIdx i q 0).val = (i 0).val := by
  unfold DotDims.lhsIdx
  rw [dif_neg (show ¬(0 : Fin S128x128.rank) ∈ dot_S128x128_S128x128_S128x128_1_1_0_0_n_n.lhsBatch by decide), dif_pos (show (0 : Fin S128x128.rank) ∈ dot_S128x128_S128x128_S128x128_1_1_0_0_n_n.lhsNonContracting by decide)]
  rfl
theorem lhs_rr_1 (i : S128x128.Idx) (q : dot_S128x128_S128x128_S128x128_1_1_0_0_n_n.contr.Idx) :
    (dot_S128x128_S128x128_S128x128_1_1_0_0_n_n.lhsIdx i q 1).val = (q ⟨0, by decide⟩).val :=
  dot_S128x128_S128x128_S128x128_1_1_0_0_n_n.lhsIdx_val_of_single rfl i q
theorem rhs_rr_0 (i : S128x128.Idx) (q : dot_S128x128_S128x128_S128x128_1_1_0_0_n_n.contr.Idx) :
    (dot_S128x128_S128x128_S128x128_1_1_0_0_n_n.rhsIdx i q 0).val = (i 1).val := by
  unfold DotDims.rhsIdx
  rw [dif_neg (show ¬(0 : Fin S128x128.rank) ∈ dot_S128x128_S128x128_S128x128_1_1_0_0_n_n.rhsBatch by decide), dif_pos (show (0 : Fin S128x128.rank) ∈ dot_S128x128_S128x128_S128x128_1_1_0_0_n_n.rhsNonContracting by decide)]
  rfl
theorem rhs_rr_1 (i : S128x128.Idx) (q : dot_S128x128_S128x128_S128x128_1_1_0_0_n_n.contr.Idx) :
    (dot_S128x128_S128x128_S128x128_1_1_0_0_n_n.rhsIdx i q 1).val = (q ⟨0, by decide⟩).val :=
  dot_S128x128_S128x128_S128x128_1_1_0_0_n_n.rhsIdx_val_of_single rfl i q

/-- A product of two 128 × 128 tables contracting the second axis of each, into the zero accumulator: entry
    `(i, j)` is the sum over `d` of `a i d * b j d`. -/
theorem mm_rr_apply (a b : FVec Ideal S128x128 .bf16) (i j : Fin 128) :
    matmul (F := Ideal) dot_S128x128_S128x128_S128x128_1_1_0_0_n_n none a b (constant (F := Ideal) S128x128 .f32 0x00000000#32) (ix2 i j)
      = ∑ d : Fin 128, a (ix2 i d) * b (ix2 j d) := by
  show FloatOps.matmul _ _ _ _ _ _ = _
  rw [Ideal.matmul_constant_zero_apply, ← Equiv.sum_comp (ValueIdx.contrEquiv1 dot_S128x128_S128x128_S128x128_1_1_0_0_n_n 128 rfl rfl).symm]
  refine Finset.sum_congr rfl fun k _ => ?_
  have hk := ValueIdx.contrEquiv1_symm_val dot_S128x128_S128x128_S128x128_1_1_0_0_n_n 128 rfl rfl k
  have el : dot_S128x128_S128x128_S128x128_1_1_0_0_n_n.lhsIdx (ix2 i j) ((ValueIdx.contrEquiv1 dot_S128x128_S128x128_S128x128_1_1_0_0_n_n 128 rfl rfl).symm k) = ix2 i k := funext fun a => Fin.ext (by
    match a with
    | ⟨0, _⟩ => exact lhs_rr_0 _ _
    | ⟨1, _⟩ => exact (lhs_rr_1 _ _).trans hk)
  have er : dot_S128x128_S128x128_S128x128_1_1_0_0_n_n.rhsIdx (ix2 i j) ((ValueIdx.contrEquiv1 dot_S128x128_S128x128_S128x128_1_1_0_0_n_n 128 rfl rfl).symm k) = ix2 j k := funext fun a => Fin.ext (by
    match a with
    | ⟨0, _⟩ => exact rhs_rr_0 _ _
    | ⟨1, _⟩ => exact (rhs_rr_1 _ _).trans hk)
  rw [el, er]

/-! ## The contraction of the second axis with the first -/
theorem lhs_rc_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_rc_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_rc_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_rc_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A product of two 128 × 128 tables contracting the second axis of the first with the first axis of the second,
    into the zero accumulator: entry `(i, e)` is the sum over `j` of `a i j * b j e`. -/
theorem mm_rc_apply (a b : FVec Ideal S128x128 .bf16) (i e : Fin 128) :
    matmul (F := Ideal) dot_S128x128_S128x128_S128x128_1_0_0_1_n_n none a b (constant (F := Ideal) S128x128 .f32 0x00000000#32) (ix2 i e)
      = ∑ j : Fin 128, a (ix2 i j) * b (ix2 j e) := by
  show FloatOps.matmul _ _ _ _ _ _ = _
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 i e) ((ValueIdx.contrEquiv1 dot_S128x128_S128x128_S128x128_1_0_0_1_n_n 128 rfl rfl).symm k) = ix2 i k := funext fun a => Fin.ext (by
    match a with
    | ⟨0, _⟩ => exact lhs_rc_0 _ _
    | ⟨1, _⟩ => exact (lhs_rc_1 _ _).trans hk)
  have er : dot_S128x128_S128x128_S128x128_1_0_0_1_n_n.rhsIdx (ix2 i e) ((ValueIdx.contrEquiv1 dot_S128x128_S128x128_S128x128_1_0_0_1_n_n 128 rfl rfl).symm k) = ix2 k e := funext fun a => Fin.ext (by
    match a with
    | ⟨0, _⟩ => exact (rhs_rc_0 _ _).trans hk
    | ⟨1, _⟩ => exact rhs_rc_1 _ _)
  rw [el, er]

/-! ## The two halves of the columns -/
theorem concat_left (x₁ x₂ : FVec Ideal S128x128 .f32) (s e : Fin 128) :
    concatenate S128x256 1 [⟨S128x128, x₁⟩, ⟨S128x128, x₂⟩] concatenates_S128x128_S128x128_S128x256_d1 (ix2 s (col 0 e)) = x₁ (ix2 s e) :=
  concatenate_pair_apply_left (t := S128x256) (s₁ := S128x128) (s₂ := S128x128) 1 x₁ x₂ concatenates_S128x128_S128x128_S128x256_d1 (ix2 s (col 0 e)) rfl (ix2 s e) (fun b => by
    match b with
    | ⟨0, _⟩ => rfl
    | ⟨1, _⟩ => show e.val = 0 * 128 + e.val; omega)
theorem concat_right (x₁ x₂ : FVec Ideal S128x128 .f32) (s e : Fin 128) :
    concatenate S128x256 1 [⟨S128x128, x₁⟩, ⟨S128x128, x₂⟩] concatenates_S128x128_S128x128_S128x256_d1 (ix2 s (col 1 e)) = x₂ (ix2 s e) :=
  concatenate_pair_apply_right (t := S128x256) (s₁ := S128x128) (s₂ := S128x128) 1 x₁ x₂ concatenates_S128x128_S128x128_S128x256_d1 (ix2 s (col 1 e)) rfl rfl (ix2 s e) (fun b hb => by
    match b, hb with
    | ⟨0, _⟩, _ => rfl
    | ⟨1, _⟩, hb => exact absurd rfl hb)
    (by show e.val + 128 = 1 * 128 + e.val; omega)

/-- The stored block at a column of the first head is its first operand there; -/
theorem pay2_left (v48 : FVec Ideal S128x128 .f32) (v64 : FVec Ideal S128x128 .bf16) (v72 : FVec Ideal S128x128 .f32) (v73 : FVec Ideal S128x128 .bf16) (s e : Fin 128) :
    k0_pay2 (F := Ideal) v48 v64 v72 v73 (ix2 s (col 0 e)) = v48 (ix2 s e) := by
  unfold k0_pay2
  exact concat_left _ _ s e
/-- at a column of the second head, gelu of the mixed values plus the queries against the state. -/
theorem pay2_right (v48 : FVec Ideal S128x128 .f32) (v64 : FVec Ideal S128x128 .bf16) (v72 : FVec Ideal S128x128 .f32) (v73 : FVec Ideal S128x128 .bf16) (s e : Fin 128) :
    k0_pay2 (F := Ideal) v48 v64 v72 v73 (ix2 s (col 1 e)) = gelu (v72 (ix2 s e) + ∑ d : Fin 128, v64 (ix2 s d) * v73 (ix2 d e)) := by
  unfold k0_pay2
  rw [← mm_rc_apply]
  exact concat_right _ _ s e

/-! ## The loaded blocks as tables -/
theorem xRows_ld (x0 : Vec Ideal S128x4096 .bf16) : xRows (View.ld x0 rX) = xRows x0 :=
  funext fun s => funext fun k => ld_tokens x0 s k
theorem wRows_ld (w : Vec Ideal S256x4096 .f32) (g : Fin 2) : wRows (View.ld w rW) g = wRows w g :=
  funext fun d => funext fun k => ld_weights w _ k
theorem oneSlab_ld0 (T : Vec Ideal S2x128x128 .f32) : oneSlab (View.ld T rG0) = gSlab T 0 :=
  funext fun a => funext fun b => ld_head0 T a b
theorem oneSlab_ld1 (T : Vec Ideal S2x128x128 .f32) : oneSlab (View.ld T rG1) = gSlab T 1 :=
  funext fun a => funext fun b => ld_head1 T a b

/-! ## The first head -/
/-- The causal scores mixed with the values: the first head's first term. -/
theorem pay12_apply (v0 : Vec Ideal S128x4096 .bf16) (v2 v5 v8 : Vec Ideal S256x4096 .f32) (v17 v19 : Vec Ideal S1x128x128 .f32) (s e : Fin 128) :
    k0_pay12 (F := Ideal) v0 v2 v5 v8 v17 v19 (ix2 s e)
      = ∑ j : Fin 128, score (xRows v0) (wRows v2 0) (wRows v5 0) (oneSlab v17) (oneSlab v19) s j * proj (xRows v0) (wRows v8 0) j e := by
  unfold k0_pay12
  rw [mm_rc_apply]
  refine Finset.sum_congr rfl fun j _ => ?_
  rw [truncf_apply, select_apply, pay7_apply, mm_rr_apply, pay11_apply]
  congr 1
  unfold score
  by_cases h : j ≤ s
  · rw [if_pos h, if_pos h, select_one]
    refine Finset.sum_congr rfl fun d _ => ?_
    rw [pay9_apply, pay10_apply]
  · rw [if_neg h, if_neg h, select_zero]
    exact Ideal.ofBits_zero_f32

/-- The scaled queries against the decayed state: the first head's second term. -/
theorem pay13_apply (v0 : Vec Ideal S128x4096 .bf16) (v2 : Vec Ideal S256x4096 .f32) (v17 v21 : Vec Ideal S1x128x128 .f32) (s e : Fin 128) :
    k0_pay13 (F := Ideal) v0 v2 v17 v21 (ix2 s e)
      = ∑ d : Fin 128, scaled (xRows v0) (wRows v2 0) (oneSlab v17) s d * oneSlab v21 d e := by
  unfold k0_pay13
  rw [mm_rc_apply]
  refine Finset.sum_congr rfl fun d _ => ?_
  rw [pay9_apply, truncf_apply, pay8_apply]
  rfl

/-! ## The second head -/
/-- The causal scores mixed with the values, over the projections' second halves. -/
theorem pay20_apply (v0 : Vec Ideal S128x4096 .bf16) (v2 v5 v8 : Vec Ideal S256x4096 .f32) (v57 v59 : Vec Ideal S1x128x128 .f32) (s e : Fin 128) :
    k0_pay20 (F := Ideal) (k0_pay4 v0 v2) (k0_pay5 v0 v5) (k0_pay6 v0 v8) k0_pay7 v57 v59 (ix2 s e)
      = ∑ j : Fin 128, score (xRows v0) (wRows v2 1) (wRows v5 1) (oneSlab v57) (oneSlab v59) s j * proj (xRows v0) (wRows v8 1) j e := by
  unfold k0_pay20
  rw [mm_rc_apply]
  refine Finset.sum_congr rfl fun j _ => ?_
  rw [truncf_apply, select_apply, pay7_apply, mm_rr_apply, pay19_apply, pay6_apply]
  congr 1
  unfold score
  by_cases h : j ≤ s
  · rw [if_pos h, if_pos h, select_one]
    refine Finset.sum_congr rfl fun d _ => ?_
    rw [pay17_apply, pay18_apply, pay4_apply, pay5_apply]
    rfl
  · rw [if_neg h, if_neg h, select_zero]
    exact Ideal.ofBits_zero_f32

/-! ## The output block, head by head -/
theorem zeroOff2 : (![0, 0] : Fin 2 → Nat) = fun _ => 0 :=
  funext fun a => by match a with | ⟨0, _⟩ => rfl | ⟨1, _⟩ => rfl

theorem outBlock_head0 (x0 : Vec Ideal S128x4096 .bf16) (x1 x2 x3 : Vec Ideal S256x4096 .f32) (x4 x5 x6 : Vec Ideal S2x128x128 .f32) (s e : Fin 128) :
    outBlock (F := Ideal) x0 x1 x2 x3 x4 x5 x6 (ix2 s (col 0 e))
      = headOut (xRows x0) (wRows x1 0) (wRows x2 0) (wRows x3 0) (gSlab x4 0) (gSlab x5 0) (gSlab x6 0) s e := by
  unfold outBlock
  rw [View.canon_unit_zero (S := S128x256) zeroOff2, pay2_left, pay14_apply, pay12_apply, pay13_apply,
    xRows_ld, wRows_ld, wRows_ld, wRows_ld, oneSlab_ld0, oneSlab_ld0, oneSlab_ld0]
  rfl

theorem outBlock_head1 (x0 : Vec Ideal S128x4096 .bf16) (x1 x2 x3 : Vec Ideal S256x4096 .f32) (x4 x5 x6 : Vec Ideal S2x128x128 .f32) (s e : Fin 128) :
    outBlock (F := Ideal) x0 x1 x2 x3 x4 x5 x6 (ix2 s (col 1 e))
      = headOut (xRows x0) (wRows x1 1) (wRows x2 1) (wRows x3 1) (gSlab x4 1) (gSlab x5 1) (gSlab x6 1) s e := by
  unfold outBlock
  rw [View.canon_unit_zero (S := S128x256) zeroOff2, pay2_right, pay20_apply,
    xRows_ld, wRows_ld, wRows_ld, wRows_ld, oneSlab_ld1, oneSlab_ld1]
  unfold headOut mixed
  congr 2
  refine Finset.sum_congr rfl fun d _ => ?_
  rw [pay17_apply, pay21_apply, pay4_apply, xRows_ld, wRows_ld, ld_head1, ld_head1]
  rfl

theorem outBlock_apply (x0 : Vec Ideal S128x4096 .bf16) (x1 x2 x3 : Vec Ideal S256x4096 .f32) (x4 x5 x6 : Vec Ideal S2x128x128 .f32) (s : Fin 128) (g : Fin 2) (e : Fin 128) :
    outBlock (F := Ideal) x0 x1 x2 x3 x4 x5 x6 (ix2 s (col g e))
      = headOut (xRows x0) (wRows x1 g) (wRows x2 g) (wRows x3 g) (gSlab x4 g) (gSlab x5 g) (gSlab x6 g) s e := by
  match g with
  | ⟨0, _⟩ => exact outBlock_head0 x0 x1 x2 x3 x4 x5 x6 s e
  | ⟨1, _⟩ => exact outBlock_head1 x0 x1 x2 x3 x4 x5 x6 s e

end Cert.KernelIdeal.Block

end
-- ==== Proof.KBlockState.lean ====
/-
  The state block the body leaves, read at an index: head `g`'s new recurrent state, the decayed state plus the
  scaled keys contracted with the values over the tokens.
-/
import proofs.«414871_j38585986187935_3_alg».proof.Proof.KBlockParts

set_option maxRecDepth 16384

noncomputable section

namespace Cert.KernelIdeal.Block

open Cert.KernelIdeal Cert.KernelIdeal.Gen Cert.KernelIdeal.Frame Cert.Retention
open Idealize.ShloMosaic Idealize.ShloMosaic.ValueIdx

/-! ## The keys against the values, contracted over the tokens -/

/-- The left operand's token axis is the contracted one; -/
theorem lhs_kv_0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
/-- its channel axis is the result's row axis; -/
theorem lhs_kv_1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
/-- the right operand's token axis is the contracted one; -/
theorem rhs_kv_0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
/-- and its channel axis is the result's column axis. -/
theorem rhs_kv_1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- Two 128 × 128 tables contracted over their first (token) axis into the zero accumulator: the entry at channels
    d and e is the sum over the tokens, in order, of the products of the two tables' entries at that token. -/
theorem matmul_kv_apply (ks vs : FVec Ideal S128x128 .bf16) (d e : Fin 128) :
    matmul (F := Ideal) dot_S128x128_S128x128_S128x128_0_0_1_1_n_n none ks vs (constant (F := Ideal) S128x128 .f32 0x00000000#32) (ix2 d e)
      = ∑ s : Fin 128, ks (ix2 s d) * vs (ix2 s e) := by
  show FloatOps.matmul dot_S128x128_S128x128_S128x128_0_0_1_1_n_n none ks vs (constant (F := Ideal) S128x128 .f32 0x00000000#32) (ix2 d e) = _
  rw [Ideal.matmul_constant_zero_apply, ← Equiv.sum_comp (ValueIdx.contrEquiv1 dot_S128x128_S128x128_S128x128_0_0_1_1_n_n 128 rfl rfl).symm]
  refine Finset.sum_congr rfl fun k _ => ?_
  have hk := ValueIdx.contrEquiv1_symm_val dot_S128x128_S128x128_S128x128_0_0_1_1_n_n 128 rfl rfl k
  have el : dot_S128x128_S128x128_S128x128_0_0_1_1_n_n.lhsIdx (ix2 d e) ((ValueIdx.contrEquiv1 dot_S128x128_S128x128_S128x128_0_0_1_1_n_n 128 rfl rfl).symm k) = ix2 k d := funext fun a => Fin.ext (by
    match a with
    | ⟨0, _⟩ => exact (lhs_kv_0 _ _).trans hk
    | ⟨1, _⟩ => exact lhs_kv_1 _ _)
  have er : dot_S128x128_S128x128_S128x128_0_0_1_1_n_n.rhsIdx (ix2 d e) ((ValueIdx.contrEquiv1 dot_S128x128_S128x128_S128x128_0_0_1_1_n_n 128 rfl rfl).symm k) = ix2 k e := funext fun a => Fin.ext (by
    match a with
    | ⟨0, _⟩ => exact (rhs_kv_0 _ _).trans hk
    | ⟨1, _⟩ => exact rhs_kv_1 _ _)
  rw [el, er]

/-- A 128 × 128 table stored as a one-head slab. -/
theorem slab_apply (v : FVec Ideal S128x128 .f32) (a b : Fin 128) :
    shapeCast S1x128x128 v shapeCasts_S128x128_S1x128x128 (ix3 0 a b) = v (ix2 a b) :=
  shapeCast_apply v shapeCasts_S128x128_S1x128x128 (ix3 0 a b) (ix2 a b) (by
    rw [Shape.rowMajor_val_three, Shape.rowMajor_val_two]
    show a.val * 128 + b.val = (0 * 128 + a.val) * 128 + b.val
    omega)

/-! ## The two stores' payloads: a head's new state -/

/-- The second head's store: the decayed state plus the keys contracted with the values over the tokens. -/
theorem pay1_apply (kd : FVec Ideal S128x128 .f32) (ks vs : FVec Ideal S128x128 .bf16) (d e : Fin 128) :
    k0_pay1 (F := Ideal) kd ks vs (ix3 0 d e) = kd (ix2 d e) + ∑ s : Fin 128, ks (ix2 s d) * vs (ix2 s e) := by
  unfold k0_pay1
  refine (slab_apply _ d e).trans ?_
  show kd (ix2 d e) + matmul (F := Ideal) dot_S128x128_S128x128_S128x128_0_0_1_1_n_n none ks vs (constant (F := Ideal) S128x128 .f32 0x00000000#32) (ix2 d e) = _
  rw [matmul_kv_apply]
/-- The first head's store, the same arithmetic. -/
theorem pay15_apply (kd : FVec Ideal S128x128 .f32) (ks vs : FVec Ideal S128x128 .bf16) (d e : Fin 128) :
    k0_pay15 (F := Ideal) kd ks vs (ix3 0 d e) = kd (ix2 d e) + ∑ s : Fin 128, ks (ix2 s d) * vs (ix2 s e) := by
  unfold k0_pay15
  refine (slab_apply _ d e).trans ?_
  show kd (ix2 d e) + matmul (F := Ideal) dot_S128x128_S128x128_S128x128_0_0_1_1_n_n none ks vs (constant (F := Ideal) S128x128 .f32 0x00000000#32) (ix2 d e) = _
  rw [matmul_kv_apply]

/-! ## The loaded blocks as tables -/

private theorem xRows_ld (x0 : Vec Ideal S128x4096 .bf16) : xRows (View.ld x0 rX) = xRows x0 :=
  funext fun s => funext fun k => ld_tokens x0 s k
private theorem wRows_ld (w : Vec Ideal S256x4096 .f32) (g : Fin 2) : wRows (View.ld w rW) g = wRows w g :=
  funext fun d => funext fun k => ld_weights w _ k
private theorem oneSlab_ld0 (T : Vec Ideal S2x128x128 .f32) : oneSlab (View.ld T rG0) = gSlab T 0 :=
  funext fun a => funext fun b => ld_head0 T a b
private theorem oneSlab_ld1 (T : Vec Ideal S2x128x128 .f32) : oneSlab (View.ld T rG1) = gSlab T 1 :=
  funext fun a => funext fun b => ld_head1 T a b

/-! ## The state block at an index -/

/-- The second head's half: the last store's payload. -/
theorem stateBlock_apply1 (x0 : Vec Ideal S128x4096 .bf16) (x1 x2 x3 : Vec Ideal S256x4096 .f32) (x4 x5 x6 : Vec Ideal S2x128x128 .f32) (d e : Fin 128) :
    stateBlock (F := Ideal) x0 x1 x2 x3 x4 x5 x6 (ix3 1 d e)
      = headState (xRows x0) (wRows x2 1) (wRows x3 1) (gSlab x5 1) (gSlab x6 1) d e := by
  have hix : (ix3 1 d e : S2x128x128.Idx) = rG1.emb (ix3 0 d e) := funext fun c => Fin.ext (by
    match c with
    | ⟨0, _⟩ => show 1 = 1 + 1 * 0; omega
    | ⟨1, _⟩ => show d.val = 0 + 1 * d.val; omega
    | ⟨2, _⟩ => show e.val = 0 + 1 * e.val; omega)
  unfold stateBlock
  rw [hix, View.canon_cons_emb, pay1_apply, pay16_apply, ld_head1]
  show _ = gSlab x6 1 d e + ∑ s : Fin 128, scaled (xRows x0) (wRows x2 1) (gSlab x5 1) s d * proj (xRows x0) (wRows x3 1) s e
  refine congrArg (fun t => x6 (ix3 1 d e) + t) (Finset.sum_congr rfl fun s _ => ?_)
  rw [pay18_apply, pay19_apply, pay5_apply, pay6_apply, ld_head1, xRows_ld, wRows_ld, wRows_ld]
  rfl

/-- An index of the first head's half is not under the second head's rectangle. -/
theorem head0_not_mem_rG1 (d e : Fin 128) : (ix3 0 d e : S2x128x128.Idx) ∉ rG1.set := by
  rw [Rect.mem_set_unit]
  intro h
  have h0 : (1 : Nat) ≤ 0 := (h 0).1
  omega

/-- The first head's half: off the last store, under the one before it. -/
theorem stateBlock_apply0 (x0 : Vec Ideal S128x4096 .bf16) (x1 x2 x3 : Vec Ideal S256x4096 .f32) (x4 x5 x6 : Vec Ideal S2x128x128 .f32) (d e : Fin 128) :
    stateBlock (F := Ideal) x0 x1 x2 x3 x4 x5 x6 (ix3 0 d e)
      = headState (xRows x0) (wRows x2 0) (wRows x3 0) (gSlab x5 0) (gSlab x6 0) d e := by
  have hix : (ix3 0 d e : S2x128x128.Idx) = rG0.emb (ix3 0 d e) := funext fun c => Fin.ext (by
    match c with
    | ⟨0, _⟩ => show 0 = 0 + 1 * 0; omega
    | ⟨1, _⟩ => show d.val = 0 + 1 * d.val; omega
    | ⟨2, _⟩ => show e.val = 0 + 1 * e.val; omega)
  unfold stateBlock
  refine (View.canon_cons_of_not_mem (Val := Elt Ideal) (s := S2x128x128) (e := .f32) ⟨rG1, _⟩ _ (head0_not_mem_rG1 d e)).trans ?_
  rw [hix, View.canon_cons_emb, pay15_apply, pay8_apply, ld_head0]
  show _ = gSlab x6 0 d e + ∑ s : Fin 128, scaled (xRows x0) (wRows x2 0) (gSlab x5 0) s d * proj (xRows x0) (wRows x3 0) s e
  refine congrArg (fun t => x6 (ix3 0 d e) + t) (Finset.sum_congr rfl fun s _ => ?_)
  rw [pay10_apply, pay11_apply, xRows_ld, wRows_ld, wRows_ld, oneSlab_ld0]

theorem stateBlock_apply (x0 : Vec Ideal S128x4096 .bf16) (x1 x2 x3 : Vec Ideal S256x4096 .f32) (x4 x5 x6 : Vec Ideal S2x128x128 .f32) (g : Fin 2) (d e : Fin 128) :
    stateBlock (F := Ideal) x0 x1 x2 x3 x4 x5 x6 (ix3 g d e)
      = headState (xRows x0) (wRows x2 g) (wRows x3 g) (gSlab x5 g) (gSlab x6 g) d e := by
  match g with
  | ⟨0, _⟩ => exact stateBlock_apply0 x0 x1 x2 x3 x4 x5 x6 d e
  | ⟨1, _⟩ => exact stateBlock_apply1 x0 x1 x2 x3 x4 x5 x6 d e

end Cert.KernelIdeal.Block

end
-- ==== Proof.Tables.lean ====
/-
  The decay tables and the decayed state as both programs' host code computes them from the decay rates
  `alpha` (a rate per head and channel) and the recurrent state: `alpha` raised to the token's exponent —
  `s - 127` for the queries, `127 - s` for the keys, the integers converted to floats — times 1/64; and the state
  scaled by `alpha ^ 128`, the power taken by seven squarings.
-/
import Idealize.ShloMosaic.PureOps
import Idealize.ShloMosaic.PureOps.Ideal

noncomputable section

namespace Cert.Retention

open Idealize.ShloMosaic

abbrev T0 : Shape := ⟨0, ![]⟩
abbrev T128 : Shape := ⟨1, ![128]⟩
abbrev T32x128 : Shape := ⟨2, ![32, 128]⟩
abbrev T32x1x128 : Shape := ⟨3, ![32, 1, 128]⟩
abbrev T1x128x1 : Shape := ⟨3, ![1, 128, 1]⟩
abbrev T32x128x1 : Shape := ⟨3, ![32, 128, 1]⟩
abbrev T32x128x128 : Shape := ⟨3, ![32, 128, 128]⟩

/-- The queries' exponents `s - 127`, as integers. -/
def expQI : IVec T128 32 := addi (broadcastInDim T128 ![] (by decide) (constantI T0 32 4294967169#32)) (iotaInDim T128 32 0)
/-- The keys' exponents `127 - s`, as integers. -/
def expKI : IVec T128 32 :=
  addi (broadcastInDim T128 ![] (by decide) (constantI T0 32 127#32))
    (muli (broadcastInDim T128 ![] (by decide) (constantI T0 32 4294967295#32)) (iotaInDim T128 32 0))

/-- `alpha` raised to the integer exponents `e`, token by token: entry `(h, s, d)` is `alpha (h, d) ^ e s`. -/
def powTab (e : IVec T128 32) (alpha : FVec Ideal T32x128 .f32) : FVec Ideal T32x128x128 .f32 :=
  Host.powf (broadcastInDim T32x128x128 ![0, 1, 2] (by decide) (broadcastInDim T32x1x128 ![0, 2] (by decide) alpha))
    (broadcastInDim T32x128x128 ![0, 1, 2] (by decide) (sitofp (F := Ideal) .f32 (broadcastInDim T1x128x1 ![1] (by decide) e)))

/-- The constant 1/64 at every entry. -/
def invSqrt : FVec Ideal T32x128x128 .f32 := broadcastInDim T32x128x128 ![] (by decide) (constant (F := Ideal) T0 .f32 0x3C800000#32)

/-- The queries' decay table. -/
def pqTab (alpha : FVec Ideal T32x128 .f32) : FVec Ideal T32x128x128 .f32 := mulf (powTab expQI alpha) invSqrt
/-- The keys' decay table. -/
def pkTab (alpha : FVec Ideal T32x128 .f32) : FVec Ideal T32x128x128 .f32 := mulf (powTab expKI alpha) invSqrt

/-- `alpha ^ 128` by seven squarings, a column per head and channel. -/
def decay (alpha : FVec Ideal T32x128 .f32) : FVec Ideal T32x128x1 .f32 :=
  let a1 : FVec Ideal T32x128x1 .f32 := broadcastInDim T32x128x1 ![0, 1] (by decide) alpha
  let a2 := mulf a1 a1
  let a4 := mulf a2 a2
  let a8 := mulf a4 a4
  let a16 := mulf a8 a8
  let a32 := mulf a16 a16
  let a64 := mulf a32 a32
  mulf a64 a64

/-- The decayed recurrent state: row `d` of head `h` scaled by `alpha (h, d) ^ 128`. -/
def kdTab (alpha : FVec Ideal T32x128 .f32) (kvs : FVec Ideal T32x128x128 .f32) : FVec Ideal T32x128x128 .f32 :=
  mulf kvs (broadcastInDim T32x128x128 ![0, 1, 2] (by decide) (decay alpha))

end Cert.Retention

end
-- ==== Proof.KHostVal.lean ====
/-
  What the region finds in the arrays the host operations wrote: the token rows unchanged (a change of float
  format is the identity over the extended reals), and the two decay tables and the decayed state as functions of
  the decay rates and the recurrent state.
-/
import proofs.«414871_j38585986187935_3_alg».proof.Proof.KHost
import proofs.«414871_j38585986187935_3_alg».proof.Proof.Tables
import Idealize.ShloMosaic.Lib.StableHlo.Run

set_option maxRecDepth 16384

noncomputable section

namespace Cert.KernelIdeal.HostVal

open Cert.KernelIdeal Cert.KernelIdeal.Gen Cert.KernelIdeal.Frame Cert.Retention
open Idealize.ShloMosaic Idealize.ShloMosaic.TcCoe Idealize.SL.Sem

variable (m : (ℓ : Loc nD τ sig) → Buf (Elt Ideal) ℓ)

theorem V_tokens (c : Dev nD) : (V m c main_v0 : S128x4096.Idx → EReal) = m ((c : Thread nD τ).loc main_arg0) := by
  dsimp only [V, hostOps0]; after_results_simp <;> rfl

theorem V_pq (c : Dev nD) : (V m c main_v17 : S32x128x128.Idx → EReal) = pqTab (m ((c : Thread nD τ).loc main_arg2)) := by
  dsimp only [V, hostOps0]; after_results_simp <;> rfl

theorem V_pk (c : Dev nD) : (V m c main_v26 : S32x128x128.Idx → EReal) = pkTab (m ((c : Thread nD τ).loc main_arg2)) := by
  dsimp only [V, hostOps0]; after_results_simp <;> rfl

theorem V_kd (c : Dev nD) : (V m c main_v36 : S32x128x128.Idx → EReal)
    = kdTab (m ((c : Thread nD τ).loc main_arg2)) (m ((c : Thread nD τ).loc main_arg3)) := by
  dsimp only [V, hostOps0]; after_results_simp <;> rfl

end Cert.KernelIdeal.HostVal

end
-- ==== Proof.KValue.lean ====
/-
  From blocks to arrays: after the run the output array is the heads' outputs side by side and the state array
  the heads' new states. Point `t` of the grid writes back columns `256 t … 256 t + 255` of the output (heads `2 t`
  and `2 t + 1`) and heads `2 t`, `2 t + 1` of the state; the blocks it read are rows `256 t …` of each third of the
  weights and heads `2 t`, `2 t + 1` of the tables; the sixteen points cover both arrays.
-/
import proofs.«414871_j38585986187935_3_alg».proof.Proof.KFrame
import proofs.«414871_j38585986187935_3_alg».proof.Proof.KBlockOut
import proofs.«414871_j38585986187935_3_alg».proof.Proof.KBlockState
import proofs.«414871_j38585986187935_3_alg».proof.Proof.KHostVal
import Idealize.ShloMosaic.Lib.Pipeline.Value

set_option maxRecDepth 16384

noncomputable section

namespace Cert.KernelIdeal.Arrays

open Cert.KernelIdeal Cert.KernelIdeal.Gen Cert.KernelIdeal.Frame Cert.KernelIdeal.Block Cert.KernelIdeal.HostVal Cert.Retention
open Idealize.ShloMosaic Idealize.ShloMosaic.TcCoe Idealize.ShloMosaic.ValueIdx Idealize.SL.Sem

variable (m : (ℓ : Loc nD τ sig) → Buf (Elt Ideal) ℓ)

/-! ## Where each window's block sits at a point -/

/-- The token window's one block is the whole array. -/
theorem idx_tokens : ∀ t : Fin cfg0.N, win0_0.index t (0 : Fin 2) = 0 ∧ win0_0.index t (1 : Fin 2) = 0 :=
  (by decide +kernel : ∀ t : Fin grid0.N, _)
/-- The query weights' block is block row `t` of the stacked matrix, -/
theorem idx_wq : ∀ t : Fin cfg0.N, win0_1.index t (0 : Fin 2) = t.val ∧ win0_1.index t (1 : Fin 2) = 0 :=
  (by decide +kernel : ∀ t : Fin grid0.N, _)
/-- the key weights' block row `t + 16`, -/
theorem idx_wk : ∀ t : Fin cfg0.N, win0_2.index t (0 : Fin 2) = t.val + 16 ∧ win0_2.index t (1 : Fin 2) = 0 :=
  (by decide +kernel : ∀ t : Fin grid0.N, _)
/-- the value weights' block row `t + 32`. -/
theorem idx_wv : ∀ t : Fin cfg0.N, win0_3.index t (0 : Fin 2) = t.val + 32 ∧ win0_3.index t (1 : Fin 2) = 0 :=
  (by decide +kernel : ∀ t : Fin grid0.N, _)
/-- The two decay tables' and the decayed state's blocks are the pair of heads `t`. -/
theorem idx_pq : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_pk : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_kd : ∀ t : Fin cfg0.N, win0_6.index t (0 : Fin 3) = t.val ∧ win0_6.index t (1 : Fin 3) = 0 ∧ win0_6.index t (2 : Fin 3) = 0 :=
  (by decide +kernel : ∀ t : Fin grid0.N, _)
/-- The output's block is block column `t`; the state's the pair of heads `t`. -/
theorem idx_out : ∀ t : Fin cfg0.N, win0_7.index t (0 : Fin 2) = 0 ∧ win0_7.index t (1 : Fin 2) = t.val :=
  (by decide +kernel : ∀ t : Fin grid0.N, _)
theorem idx_state : ∀ t : Fin cfg0.N, win0_8.index t (0 : Fin 3) = t.val ∧ win0_8.index t (1 : Fin 3) = 0 ∧ win0_8.index t (2 : Fin 3) = 0 :=
  (by decide +kernel : ∀ t : Fin grid0.N, _)

/-- The grid has sixteen points. -/
theorem point_lt (t : Fin cfg0.N) : t.val < 16 := (show t.val < grid0.N from t.isLt).trans_eq N_0

/-- The head that half `g` of point `t` works on. -/
def headAt (t : Fin cfg0.N) (g : Fin 2) : Fin 32 := ⟨2 * t.val + g.val, by have := point_lt t; have := g.isLt; omega⟩

/-! ## The input blocks as entries of the arrays -/

/-- The token block is the token array. -/
theorem tokens_read (c : Dev nD) (t : Fin cfg0.N) (s : Fin 128) (k : Fin 4096) :
    (iblk m c 0 t : Vec Ideal S128x4096 .bf16) (ix2 s k)
      = (m ((c : Thread nD τ).loc main_arg0) : S128x4096.Idx → EReal) (ix2 s k) := by
  obtain ⟨e0, e1⟩ := idx_tokens t
  refine Eq.trans ?_ (congrFun (V_tokens m c) (ix2 s k))
  show V m c main_v0 (((cfg0.win 0).blk t).view.emb (ix2 s k)) = V m c main_v0 (ix2 s k)
  refine congrArg (V m c main_v0) (funext fun a => Fin.ext ?_)
  match a with
  | ⟨0, _⟩ => show win0_0.index t (0 : Fin 2) * 128 + 1 * s.val = s.val; omega
  | ⟨1, _⟩ => show win0_0.index t (1 : Fin 2) * 4096 + 1 * k.val = k.val; omega

theorem tokens_rows (c : Dev nD) (t : Fin cfg0.N) :
    xRows (iblk m c 0 t) = rows (m ((c : Thread nD τ).loc main_arg0)) := by
  funext s k
  exact tokens_read m c t s k

/-- Row `n` of the query weights' block is row `256 t + n` of the stacked matrix. -/
theorem wq_read (c : Dev nD) (t : Fin cfg0.N) (n : Fin 256) (k : Fin 4096) (r : Fin 12288) (hr : r.val = 0 + 256 * t.val + n.val) :
    (iblk m c 1 t : Vec Ideal S256x4096 .f32) (ix2 n k)
      = (m ((c : Thread nD τ).loc main_arg1) : S12288x4096.Idx → EReal) (ix2 r k) := by
  obtain ⟨e0, e1⟩ := idx_wq t
  have hV : (V m c main_arg1 : S12288x4096.Idx → EReal) = m ((c : Thread nD τ).loc main_arg1) := V_main_arg1 m c
  refine Eq.trans ?_ (congrFun hV (ix2 r k))
  show V m c main_arg1 (((cfg0.win 1).blk t).view.emb (ix2 n k)) = V m c main_arg1 (ix2 r k)
  refine congrArg (V m c main_arg1) (funext fun a => Fin.ext ?_)
  match a with
  | ⟨0, _⟩ => show win0_1.index t (0 : Fin 2) * 256 + 1 * n.val = r.val; omega
  | ⟨1, _⟩ => show win0_1.index t (1 : Fin 2) * 4096 + 1 * k.val = k.val; omega

/-- So the rows half `g` reads there are head `2 t + g`'s. -/
theorem wq_rows (c : Dev nD) (t : Fin cfg0.N) (g : Fin 2) :
    wRows (iblk m c 1 t) g = wrows (m ((c : Thread nD τ).loc main_arg1)) 0 (by decide) (headAt t g) := by
  funext d k
  exact wq_read m c t _ k _ (by
    show 0 + (2 * t.val + g.val) * 128 + d.val = 0 + 256 * t.val + (g.val * 128 + d.val); omega)

/-- Row `n` of the key weights' block is row `4096 + 256 t + n`. -/
theorem wk_read (c : Dev nD) (t : Fin cfg0.N) (n : Fin 256) (k : Fin 4096) (r : Fin 12288) (hr : r.val = 4096 + 256 * t.val + n.val) :
    (iblk m c 2 t : Vec Ideal S256x4096 .f32) (ix2 n k)
      = (m ((c : Thread nD τ).loc main_arg1) : S12288x4096.Idx → EReal) (ix2 r k) := by
  obtain ⟨e0, e1⟩ := idx_wk t
  have hV : (V m c main_arg1 : S12288x4096.Idx → EReal) = m ((c : Thread nD τ).loc main_arg1) := V_main_arg1 m c
  refine Eq.trans ?_ (congrFun hV (ix2 r k))
  show V m c main_arg1 (((cfg0.win 2).blk t).view.emb (ix2 n k)) = V m c main_arg1 (ix2 r k)
  refine congrArg (V m c main_arg1) (funext fun a => Fin.ext ?_)
  match a with
  | ⟨0, _⟩ => show win0_2.index t (0 : Fin 2) * 256 + 1 * n.val = r.val; omega
  | ⟨1, _⟩ => show win0_2.index t (1 : Fin 2) * 4096 + 1 * k.val = k.val; omega

/-- So the rows half `g` reads there are head `2 t + g`'s. -/
theorem wk_rows (c : Dev nD) (t : Fin cfg0.N) (g : Fin 2) :
    wRows (iblk m c 2 t) g = wrows (m ((c : Thread nD τ).loc main_arg1)) 4096 (by decide) (headAt t g) := by
  funext d k
  exact wk_read m c t _ k _ (by
    show 4096 + (2 * t.val + g.val) * 128 + d.val = 4096 + 256 * t.val + (g.val * 128 + d.val); omega)

/-- Row `n` of the value weights' block is row `8192 + 256 t + n`. -/
theorem wv_read (c : Dev nD) (t : Fin cfg0.N) (n : Fin 256) (k : Fin 4096) (r : Fin 12288) (hr : r.val = 8192 + 256 * t.val + n.val) :
    (iblk m c 3 t : Vec Ideal S256x4096 .f32) (ix2 n k)
      = (m ((c : Thread nD τ).loc main_arg1) : S12288x4096.Idx → EReal) (ix2 r k) := by
  obtain ⟨e0, e1⟩ := idx_wv t
  have hV : (V m c main_arg1 : S12288x4096.Idx → EReal) = m ((c : Thread nD τ).loc main_arg1) := V_main_arg1 m c
  refine Eq.trans ?_ (congrFun hV (ix2 r k))
  show V m c main_arg1 (((cfg0.win 3).blk t).view.emb (ix2 n k)) = V m c main_arg1 (ix2 r k)
  refine congrArg (V m c main_arg1) (funext fun a => Fin.ext ?_)
  match a with
  | ⟨0, _⟩ => show win0_3.index t (0 : Fin 2) * 256 + 1 * n.val = r.val; omega
  | ⟨1, _⟩ => show win0_3.index t (1 : Fin 2) * 4096 + 1 * k.val = k.val; omega

/-- So the rows half `g` reads there are head `2 t + g`'s. -/
theorem wv_rows (c : Dev nD) (t : Fin cfg0.N) (g : Fin 2) :
    wRows (iblk m c 3 t) g = wrows (m ((c : Thread nD τ).loc main_arg1)) 8192 (by decide) (headAt t g) := by
  funext d k
  exact wv_read m c t _ k _ (by
    show 8192 + (2 * t.val + g.val) * 128 + d.val = 8192 + 256 * t.val + (g.val * 128 + d.val); omega)

/-- Slab `g` of the queries' decay block is head `2 t + g`'s slab of the table. -/
theorem pq_read (c : Dev nD) (t : Fin cfg0.N) (g : Fin 2) (a b : Fin 128) (h : Fin 32) (hh : h.val = 2 * t.val + g.val) :
    (iblk m c 4 t : Vec Ideal S2x128x128 .f32) (ix3 g a b) = pqTab (m ((c : Thread nD τ).loc main_arg2)) (ix3 h a b) := by
  obtain ⟨e0, e1, e2⟩ := idx_pq t
  refine Eq.trans ?_ (congrFun (V_pq m c) (ix3 h a b))
  show V m c main_v17 (((cfg0.win 4).blk t).view.emb (ix3 g a b)) = V m c main_v17 (ix3 h a b)
  refine congrArg (V m c main_v17) (funext fun x => Fin.ext ?_)
  match x with
  | ⟨0, _⟩ => show win0_4.index t (0 : Fin 3) * 2 + 1 * g.val = h.val; omega
  | ⟨1, _⟩ => show win0_4.index t (1 : Fin 3) * 128 + 1 * a.val = a.val; omega
  | ⟨2, _⟩ => show win0_4.index t (2 : Fin 3) * 128 + 1 * b.val = b.val; omega

theorem pq_slab (c : Dev nD) (t : Fin cfg0.N) (g : Fin 2) :
    gSlab (iblk m c 4 t) g = slab (pqTab (m ((c : Thread nD τ).loc main_arg2))) (headAt t g) := by
  funext a b
  exact pq_read m c t g a b _ rfl

/-- The same for the keys' decay table, -/
theorem pk_read (c : Dev nD) (t : Fin cfg0.N) (g : Fin 2) (a b : Fin 128) (h : Fin 32) (hh : h.val = 2 * t.val + g.val) :
    (iblk m c 5 t : Vec Ideal S2x128x128 .f32) (ix3 g a b) = pkTab (m ((c : Thread nD τ).loc main_arg2)) (ix3 h a b) := by
  obtain ⟨e0, e1, e2⟩ := idx_pk t
  refine Eq.trans ?_ (congrFun (V_pk m c) (ix3 h a b))
  show V m c main_v26 (((cfg0.win 5).blk t).view.emb (ix3 g a b)) = V m c main_v26 (ix3 h a b)
  refine congrArg (V m c main_v26) (funext fun x => Fin.ext ?_)
  match x with
  | ⟨0, _⟩ => show win0_5.index t (0 : Fin 3) * 2 + 1 * g.val = h.val; omega
  | ⟨1, _⟩ => show win0_5.index t (1 : Fin 3) * 128 + 1 * a.val = a.val; omega
  | ⟨2, _⟩ => show win0_5.index t (2 : Fin 3) * 128 + 1 * b.val = b.val; omega

theorem pk_slab (c : Dev nD) (t : Fin cfg0.N) (g : Fin 2) :
    gSlab (iblk m c 5 t) g = slab (pkTab (m ((c : Thread nD τ).loc main_arg2))) (headAt t g) := by
  funext a b
  exact pk_read m c t g a b _ rfl

/-- and for the decayed state. -/
theorem kd_read (c : Dev nD) (t : Fin cfg0.N) (g : Fin 2) (a b : Fin 128) (h : Fin 32) (hh : h.val = 2 * t.val + g.val) :
    (iblk m c 6 t : Vec Ideal S2x128x128 .f32) (ix3 g a b) = kdTab (m ((c : Thread nD τ).loc main_arg2)) (m ((c : Thread nD τ).loc main_arg3)) (ix3 h a b) := by
  obtain ⟨e0, e1, e2⟩ := idx_kd t
  refine Eq.trans ?_ (congrFun (V_kd m c) (ix3 h a b))
  show V m c main_v36 (((cfg0.win 6).blk t).view.emb (ix3 g a b)) = V m c main_v36 (ix3 h a b)
  refine congrArg (V m c main_v36) (funext fun x => Fin.ext ?_)
  match x with
  | ⟨0, _⟩ => show win0_6.index t (0 : Fin 3) * 2 + 1 * g.val = h.val; omega
  | ⟨1, _⟩ => show win0_6.index t (1 : Fin 3) * 128 + 1 * a.val = a.val; omega
  | ⟨2, _⟩ => show win0_6.index t (2 : Fin 3) * 128 + 1 * b.val = b.val; omega

theorem kd_slab (c : Dev nD) (t : Fin cfg0.N) (g : Fin 2) :
    gSlab (iblk m c 6 t) g = slab (kdTab (m ((c : Thread nD τ).loc main_arg2)) (m ((c : Thread nD τ).loc main_arg3))) (headAt t g) := by
  funext a b
  exact kd_read m c t g a b _ rfl

/-! ## What a point writes back -/

/-- Entry `(s, g * 128 + e)` of the output block of point `t` is entry `(s, n)` of the output array, `n` the
    column `256 t + g * 128 + e`: head `2 t + g`, channel `e`. -/
theorem out_point (c : Dev nD) (t : Fin cfg0.N) (s : Fin 128) (g : Fin 2) (e : Fin 128) (n : Fin 4096)
    (hn : n.val = 256 * t.val + (g.val * 128 + e.val)) :
    outBlock (F := Ideal) (iblk m c 0 t) (iblk m c 1 t) (iblk m c 2 t) (iblk m c 3 t) (iblk m c 4 t) (iblk m c 5 t) (iblk m c 6 t) (ix2 s (col g e))
      = outArr (m ((c : Thread nD τ).loc main_arg0)) (m ((c : Thread nD τ).loc main_arg1))
          (pqTab (m ((c : Thread nD τ).loc main_arg2))) (pkTab (m ((c : Thread nD τ).loc main_arg2)))
          (kdTab (m ((c : Thread nD τ).loc main_arg2)) (m ((c : Thread nD τ).loc main_arg3))) (ix2 s n) := by
  have hh : headOf n = headAt t g := Fin.ext (by
    show n.val / 128 = 2 * t.val + g.val; have := e.isLt; omega)
  have he : chanOf n = e := Fin.ext (by show n.val % 128 = e.val; have := e.isLt; omega)
  refine (outBlock_apply _ _ _ _ _ _ _ s g e).trans ?_
  rw [tokens_rows, wq_rows, wk_rows, wv_rows, pq_slab, pk_slab, kd_slab]
  show _ = headOut _ (wrows _ 0 _ (headOf n)) (wrows _ 4096 _ (headOf n)) (wrows _ 8192 _ (headOf n))
    (slab _ (headOf n)) (slab _ (headOf n)) (slab _ (headOf n)) s (chanOf n)
  rw [hh, he]

/-- The same over any index of the block and the array index it lands on. -/
theorem out_block_eq (c : Dev nD) (t : Fin cfg0.N) (j : S128x256.Idx) (i : S128x4096.Idx)
    (h0 : (i 0).val = (j 0).val) (h1 : (i 1).val = 256 * t.val + (j 1).val) :
    outBlock (F := Ideal) (iblk m c 0 t) (iblk m c 1 t) (iblk m c 2 t) (iblk m c 3 t) (iblk m c 4 t) (iblk m c 5 t) (iblk m c 6 t) j
      = outArr (m ((c : Thread nD τ).loc main_arg0)) (m ((c : Thread nD τ).loc main_arg1))
          (pqTab (m ((c : Thread nD τ).loc main_arg2))) (pkTab (m ((c : Thread nD τ).loc main_arg2)))
          (kdTab (m ((c : Thread nD τ).loc main_arg2)) (m ((c : Thread nD τ).loc main_arg3))) i := by
  have hj1 : (j 1).val < 256 := idx2_lt1 j
  obtain ⟨s, g, e, hge, rfl⟩ : ∃ (s : Fin 128) (g : Fin 2) (e : Fin 128), (j 1).val = g.val * 128 + e.val ∧ j = ix2 s (col g e) :=
    ⟨j 0, ⟨(j 1).val / 128, by omega⟩, ⟨(j 1).val % 128, Nat.mod_lt _ (by decide)⟩, by show (j 1).val = (j 1).val / 128 * 128 + (j 1).val % 128; omega,
      funext fun a => by
        match a with
        | ⟨0, _⟩ => rfl
        | ⟨1, _⟩ => exact Fin.ext (by show (j 1).val = (j 1).val / 128 * 128 + (j 1).val % 128; omega)⟩
  obtain ⟨n, hn, rfl⟩ : ∃ n : Fin 4096, n.val = (i 1).val ∧ i = ix2 s n :=
    ⟨i 1, rfl, funext fun a => by
      match a with
      | ⟨0, _⟩ => exact Fin.ext h0
      | ⟨1, _⟩ => rfl⟩
  exact out_point m c t s g e n (by rw [hn, h1, hge])

/-- WHAT POINT `t` WRITES BACK TO THE OUTPUT is block column `t` of the heads' outputs side by side. -/
theorem flushed_out (c : Dev nD) (t : Fin cfg0.N) :
    (dats m 0 c).flushed 7 t = ((cfg0.win 7).blk t).view.read (Elt Ideal)
      (outArr (m ((c : Thread nD τ).loc main_arg0)) (m ((c : Thread nD τ).loc main_arg1))
          (pqTab (m ((c : Thread nD τ).loc main_arg2))) (pkTab (m ((c : Thread nD τ).loc main_arg2)))
          (kdTab (m ((c : Thread nD τ).loc main_arg2)) (m ((c : Thread nD τ).loc main_arg3)))) := by
  show (cfg0.win 7).cut (grid0.coords t) ((dats m 0 c).after 7 t) = _
  rw [after0_7]
  obtain ⟨e0, e1⟩ := idx_out t
  funext j
  refine out_block_eq m c t j _ ?_ ?_
  · show win0_7.index t (0 : Fin 2) * 128 + 1 * ((j : S128x256.Idx) 0).val = ((j : S128x256.Idx) 0).val; omega
  · show win0_7.index t (1 : Fin 2) * 256 + 1 * ((j : S128x256.Idx) 1).val = 256 * t.val + ((j : S128x256.Idx) 1).val; omega

/-- Entry `(g, d, e)` of the state block of point `t` is entry `(2 t + g, d, e)` of the new state. -/
theorem state_point (c : Dev nD) (t : Fin cfg0.N) (g : Fin 2) (d e : Fin 128) (h : Fin 32) (hh : h.val = 2 * t.val + g.val) :
    stateBlock (F := Ideal) (iblk m c 0 t) (iblk m c 1 t) (iblk m c 2 t) (iblk m c 3 t) (iblk m c 4 t) (iblk m c 5 t) (iblk m c 6 t) (ix3 g d e)
      = stateArr (m ((c : Thread nD τ).loc main_arg0)) (m ((c : Thread nD τ).loc main_arg1))
          (pkTab (m ((c : Thread nD τ).loc main_arg2)))
          (kdTab (m ((c : Thread nD τ).loc main_arg2)) (m ((c : Thread nD τ).loc main_arg3))) (ix3 h d e) := by
  obtain rfl : h = headAt t g := Fin.ext hh
  refine (stateBlock_apply _ _ _ _ _ _ _ g d e).trans ?_
  rw [tokens_rows, wk_rows, wv_rows, pk_slab, kd_slab]
  rfl

/-- The same over any index of the block and the array index it lands on. -/
theorem state_block_eq (c : Dev nD) (t : Fin cfg0.N) (j : S2x128x128.Idx) (i : S32x128x128.Idx)
    (h0 : (i 0).val = 2 * t.val + (j 0).val) (h1 : (i 1).val = (j 1).val) (h2 : (i 2).val = (j 2).val) :
    stateBlock (F := Ideal) (iblk m c 0 t) (iblk m c 1 t) (iblk m c 2 t) (iblk m c 3 t) (iblk m c 4 t) (iblk m c 5 t) (iblk m c 6 t) j
      = stateArr (m ((c : Thread nD τ).loc main_arg0)) (m ((c : Thread nD τ).loc main_arg1))
          (pkTab (m ((c : Thread nD τ).loc main_arg2)))
          (kdTab (m ((c : Thread nD τ).loc main_arg2)) (m ((c : Thread nD τ).loc main_arg3))) i := by
  obtain ⟨g, d, e, rfl⟩ : ∃ (g : Fin 2) (d e : Fin 128), j = ix3 g d e := ⟨j 0, j 1, j 2, eq_ix3 j⟩
  obtain ⟨h, hh, rfl⟩ : ∃ h : Fin 32, h.val = (i 0).val ∧ i = ix3 h d e :=
    ⟨i 0, rfl, funext fun a => by
      match a with
      | ⟨0, _⟩ => rfl
      | ⟨1, _⟩ => exact Fin.ext h1
      | ⟨2, _⟩ => exact Fin.ext h2⟩
  exact state_point m c t g d e h (hh.trans h0)

/-- WHAT POINT `t` WRITES BACK TO THE STATE is the new states of heads `2 t` and `2 t + 1`. -/
theorem flushed_state (c : Dev nD) (t : Fin cfg0.N) :
    (dats m 0 c).flushed 8 t = ((cfg0.win 8).blk t).view.read (Elt Ideal)
      (stateArr (m ((c : Thread nD τ).loc main_arg0)) (m ((c : Thread nD τ).loc main_arg1))
          (pkTab (m ((c : Thread nD τ).loc main_arg2)))
          (kdTab (m ((c : Thread nD τ).loc main_arg2)) (m ((c : Thread nD τ).loc main_arg3)))) := by
  show (cfg0.win 8).cut (grid0.coords t) ((dats m 0 c).after 8 t) = _
  rw [after0_8]
  obtain ⟨e0, e1, e2⟩ := idx_state t
  funext j
  refine state_block_eq m c t j _ ?_ ?_ ?_
  · show win0_8.index t (0 : Fin 3) * 2 + 1 * ((j : S2x128x128.Idx) 0).val = 2 * t.val + ((j : S2x128x128.Idx) 0).val; omega
  · show win0_8.index t (1 : Fin 3) * 128 + 1 * ((j : S2x128x128.Idx) 1).val = ((j : S2x128x128.Idx) 1).val; omega
  · show win0_8.index t (2 : Fin 3) * 128 + 1 * ((j : S2x128x128.Idx) 2).val = ((j : S2x128x128.Idx) 2).val; omega

/-! ## The sixteen blocks cover each array -/

/-- An index of the output array is in point `t`'s block iff each coordinate is in the block's range on its axis. -/
theorem mem_out_block (t : Fin cfg0.N) (i : S128x4096.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v37_0).slice (win0_7.rect t)).set ↔ _
  rw [View.set_slice_whole, Rect.mem_set_unit]
  exact Iff.rfl

/-- The same for the state array. -/
theorem mem_state_block (t : Fin cfg0.N) (i : S32x128x128.Idx) :
    i ∈ ((cfg0.win 8).blk t).view.set ↔ ∀ a : Fin 3, win0_8.index t a * S2x128x128.size a ≤ (i a).val ∧ (i a).val < win0_8.index t a * S2x128x128.size a + S2x128x128.size a := by
  show i ∈ ((View.whole main_v37_1).slice (win0_8.rect t)).set ↔ _
  rw [View.set_slice_whole, Rect.mem_set_unit]
  exact Iff.rfl

/-- Column `n` of the output lies in the block of point `n / 256`. -/
theorem out_cover (i : S128x4096.Idx) : ∃ t : Fin cfg0.N, (cfg0.win 7).flush t = true ∧ i ∈ ((cfg0.win 7).blk t).view.set := by
  have hi0 : (i 0).val < 128 := idx2_lt0 i
  have hi1 : (i 1).val < 4096 := idx2_lt1 i
  have hN : cfg0.N = 16 := N_0
  obtain ⟨t, ht⟩ : ∃ t : Fin cfg0.N, t.val = (i 1).val / 256 := ⟨⟨(i 1).val / 256, by rw [hN]; omega⟩, rfl⟩
  obtain ⟨e0, e1⟩ := idx_out t
  refine ⟨t, flush0_7 t, ?_⟩
  rw [mem_out_block]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 256 ≤ (i 1).val ∧ (i 1).val < win0_7.index t (1 : Fin 2) * 256 + 256; omega

/-- Head `h` of the state lies in the block of point `h / 2`. -/
theorem state_cover (i : S32x128x128.Idx) : ∃ t : Fin cfg0.N, (cfg0.win 8).flush t = true ∧ i ∈ ((cfg0.win 8).blk t).view.set := by
  have hi0 : (i 0).val < 32 := (i 0).isLt
  have hi1 : (i 1).val < 128 := (i 1).isLt
  have hi2 : (i 2).val < 128 := (i 2).isLt
  have hN : cfg0.N = 16 := N_0
  obtain ⟨t, ht⟩ : ∃ t : Fin cfg0.N, t.val = (i 0).val / 2 := ⟨⟨(i 0).val / 2, by rw [hN]; omega⟩, rfl⟩
  obtain ⟨e0, e1, e2⟩ := idx_state t
  refine ⟨t, flush0_8 t, ?_⟩
  rw [mem_state_block]
  intro a
  match a with
  | ⟨0, _⟩ => show win0_8.index t (0 : Fin 3) * 2 ≤ (i 0).val ∧ (i 0).val < win0_8.index t (0 : Fin 3) * 2 + 2; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-! ## The arrays after the run -/

/-- The output array after the last write-back. -/
theorem final_out (c : Dev nD) :
    ((dats m 0 c).arrAt 7 cfg0.N : S128x4096.Idx → EReal)
      = outArr (m ((c : Thread nD τ).loc main_arg0)) (m ((c : Thread nD τ).loc main_arg1))
          (pqTab (m ((c : Thread nD τ).loc main_arg2))) (pkTab (m ((c : Thread nD τ).loc main_arg2)))
          (kdTab (m ((c : Thread nD τ).loc main_arg2)) (m ((c : Thread nD τ).loc main_arg3))) :=
  (dats m 0 c).arrAt_eq_of_cover 7 _ (fun t _ => flushed_out m c t) out_cover

/-- The state array after the last write-back. -/
theorem final_state (c : Dev nD) :
    ((dats m 0 c).arrAt 8 cfg0.N : S32x128x128.Idx → EReal)
      = stateArr (m ((c : Thread nD τ).loc main_arg0)) (m ((c : Thread nD τ).loc main_arg1))
          (pkTab (m ((c : Thread nD τ).loc main_arg2)))
          (kdTab (m ((c : Thread nD τ).loc main_arg2)) (m ((c : Thread nD τ).loc main_arg3))) :=
  (dats m 0 c).arrAt_eq_of_cover 8 _ (fun t _ => flushed_state m c t) state_cover

end Cert.KernelIdeal.Arrays

end
-- ==== Proof.RefParts.lean ====
/-
  The reference's stages, head by head. Its one big product `x Wᵀ`, reshaped to (token, third, head, channel) and
  transposed, gives each head's query, key and value projections: entry `(h, s, d)` of a third is the inner
  product of token row `s` with weight row `third * 4096 + h * 128 + d`. The scaled queries and keys multiply a
  projection by `alpha ^ exponent` and then by `1 / sqrt 4096`; since `sqrt 4096 = 64` that constant is the 1/64
  of the decay tables, and the two factors regroup by associativity of the product.
-/
import proofs.«414871_j38585986187935_3_alg».proof.Proof.Gen.ReferenceIdeal.Read
import proofs.«414871_j38585986187935_3_alg».proof.Proof.Spec
import proofs.«414871_j38585986187935_3_alg».proof.Proof.Tables

set_option maxRecDepth 16384

noncomputable section

namespace Cert.ReferenceIdeal.Heads

open Cert.ReferenceIdeal Cert.ReferenceIdeal.Gen Cert.ReferenceIdeal.Read Cert.Retention
open Idealize.ShloMosaic Idealize.ShloMosaic.ValueIdx

variable (x : FVec Ideal S128x4096 .f32) (W : FVec Ideal S12288x4096 .f32) (alpha : FVec Ideal S32x128 .f32) (kvs : FVec Ideal S32x128x128 .f32)

/-! The three float words the scale is made of, as reals. -/

theorem word_4096 : Ideal.ofBits .f32 0x45800000#32 = ((4096 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_inv64 : Ideal.ofBits .f32 0x3C800000#32 = ((1 / 64 : ℝ) : EReal) := by
  simp [Ideal.ofBits, Ideal.ieee, -EReal.coe_mul]; norm_num

theorem sqrt_4096 : Real.sqrt 4096 = 64 := by
  rw [show (4096 : ℝ) = 64 ^ 2 by norm_num]
  exact Real.sqrt_sq (by norm_num)

/-- `1 / sqrt 4096` is the word for 1/64. -/
theorem scale_word (j : S_.Idx) : val_main_v1 (F := Ideal) j = Ideal.ofBits .f32 0x3C800000#32 := by
  rw [val_main_v1_apply, val_main_cst_0_apply, val_main_v0_apply, val_main_cst_apply, Ideal.hostDivf_def,
    Ideal.hostUnary_sqrt_def, Ideal.ofBits_def, Ideal.ofBits_def, word_4096, word_one, word_inv64, Ideal.sqrt_coe,
    if_neg (by norm_num), sqrt_4096, Ideal.div_coe (by norm_num), ← EReal.coe_mul, one_mul]

/-- The reference's scale `1 / sqrt 4096` is 1/64, the constant of the decay tables. -/
theorem scale_eq (i : S32x128x128.Idx) : val_main_v23 (F := Ideal) i = invSqrt i := by
  rw [val_main_v23_apply, scale_word]; rfl
theorem scale_eq' (i : S32x128x128.Idx) : val_main_v38 (F := Ideal) i = invSqrt i := by
  rw [val_main_v38_apply, scale_word]; rfl

/-- The product's operands at column `n` of row `s`: token row `s` and weight row `n`. -/
theorem lhs_row (s : Fin 128) (n : Fin 12288) (k : Fin 4096) : lidx_main_v3 (ix2 s n) k = ix2 s k :=
  funext fun a => by match a with | ⟨0, _⟩ => rfl | ⟨1, _⟩ => rfl
theorem rhs_row (s : Fin 128) (n : Fin 12288) (k : Fin 4096) : idx_main_v2 (ridx_main_v3 (ix2 s n) k) = ix2 n k :=
  funext fun a => by match a with | ⟨0, _⟩ => rfl | ⟨1, _⟩ => rfl

/-- Entry (third, head, token, channel) of the reshaped and transposed product: the inner product of the token's
    row with weight row `third * 4096 + head * 128 + channel`. -/
theorem third_apply (t : Fin 3) (base : Nat) (hb : base + 4096 ≤ 12288) (ht : base = t.val * 4096) (h : Fin 32) (s d : Fin 128) :
    val_main_v5 (F := Ideal) x W (ix4 t h s d) = proj (rows x) (wrows W base hb h) s d := by
  have e4 : idx_main_v4 (idx_main_v5 (ix4 t h s d))
      = ix2 s ⟨base + h.val * 128 + d.val, by have := h.isLt; have := d.isLt; omega⟩ :=
    funext fun a => Fin.ext (by
      have := t.isLt; have := h.isLt; have := s.isLt; have := d.isLt
      match a with
      | ⟨0, _⟩ => show (((s.val * 3 + t.val) * 32 + h.val) * 128 + d.val) / 12288 = s.val; omega
      | ⟨1, _⟩ => show (((s.val * 3 + t.val) * 32 + h.val) * 128 + d.val) % 12288 = base + h.val * 128 + d.val; omega)
  rw [val_main_v5_apply, val_main_v4_apply, val_main_v3_apply, e4]
  unfold proj rows wrows
  refine Finset.sum_congr rfl fun k _ => ?_
  rw [val_main_v2_apply, lhs_row, rhs_row]

/-- The three projections, one head at a time. -/
theorem q_apply (h : Fin 32) (s d : Fin 128) :
    val_main_v7 (F := Ideal) x W (ix3 h s d) = proj (rows x) (wrows W 0 (by decide) h) s d := by
  have e : idx_main_v6 (idx_main_v7 (ix3 h s d)) = ix4 (0 : Fin 3) h s d :=
    funext fun a => Fin.ext (by
      have := h.isLt; have := s.isLt; have := d.isLt
      match a with
      | ⟨0, _⟩ => rfl
      | ⟨1, _⟩ => show ((h.val * 128 + s.val) * 128 + d.val) / 16384 % 32 = h.val; omega
      | ⟨2, _⟩ => show ((h.val * 128 + s.val) * 128 + d.val) / 128 % 128 = s.val; omega
      | ⟨3, _⟩ => show ((h.val * 128 + s.val) * 128 + d.val) % 128 = d.val; omega)
  rw [val_main_v7_apply, val_main_v6_apply, e]
  exact third_apply x W 0 0 (by decide) rfl h s d
theorem k_apply (h : Fin 32) (s d : Fin 128) :
    val_main_v9 (F := Ideal) x W (ix3 h s d) = proj (rows x) (wrows W 4096 (by decide) h) s d := by
  have e : idx_main_v8 (idx_main_v9 (ix3 h s d)) = ix4 (1 : Fin 3) h s d :=
    funext fun a => Fin.ext (by
      have := h.isLt; have := s.isLt; have := d.isLt
      match a with
      | ⟨0, _⟩ => rfl
      | ⟨1, _⟩ => show ((h.val * 128 + s.val) * 128 + d.val) / 16384 % 32 = h.val; omega
      | ⟨2, _⟩ => show ((h.val * 128 + s.val) * 128 + d.val) / 128 % 128 = s.val; omega
      | ⟨3, _⟩ => show ((h.val * 128 + s.val) * 128 + d.val) % 128 = d.val; omega)
  rw [val_main_v9_apply, val_main_v8_apply, e]
  exact third_apply x W 1 4096 (by decide) rfl h s d
theorem v_apply (h : Fin 32) (s d : Fin 128) :
    val_main_v11 (F := Ideal) x W (ix3 h s d) = proj (rows x) (wrows W 8192 (by decide) h) s d := by
  have e : idx_main_v10 (idx_main_v11 (ix3 h s d)) = ix4 (2 : Fin 3) h s d :=
    funext fun a => Fin.ext (by
      have := h.isLt; have := s.isLt; have := d.isLt
      match a with
      | ⟨0, _⟩ => rfl
      | ⟨1, _⟩ => show ((h.val * 128 + s.val) * 128 + d.val) / 16384 % 32 = h.val; omega
      | ⟨2, _⟩ => show ((h.val * 128 + s.val) * 128 + d.val) / 128 % 128 = s.val; omega
      | ⟨3, _⟩ => show ((h.val * 128 + s.val) * 128 + d.val) % 128 = d.val; omega)
  rw [val_main_v11_apply, val_main_v10_apply, e]
  exact third_apply x W 2 8192 (by decide) rfl h s d

/-- The reference's powers of the decay rates are the tables' `powTab`. -/
theorem pow_q_eq : val_main_v21 (F := Ideal) alpha = powTab expQI alpha := rfl
theorem pow_k_eq : val_main_v36 (F := Ideal) alpha = powTab expKI alpha := rfl

/-- The scaled queries and keys. -/
theorem qs_apply (h : Fin 32) (s d : Fin 128) :
    val_main_v24 (F := Ideal) x W alpha (ix3 h s d) = scaled (rows x) (wrows W 0 (by decide) h) (slab (pqTab alpha) h) s d := by
  rw [val_main_v24_apply, val_main_v22_apply, Ideal.mulf_def, Ideal.mulf_def, q_apply, scale_eq, pow_q_eq, mul_assoc]
  rfl
theorem ks_apply (h : Fin 32) (s d : Fin 128) :
    val_main_v39 (F := Ideal) x W alpha (ix3 h s d) = scaled (rows x) (wrows W 4096 (by decide) h) (slab (pkTab alpha) h) s d := by
  rw [val_main_v39_apply, val_main_v37_apply, Ideal.mulf_def, Ideal.mulf_def, k_apply, scale_eq', pow_k_eq, mul_assoc]
  rfl

/-- The decayed state, in both places the reference computes it. -/
theorem kd_apply (i : S32x128x128.Idx) : val_main_v52 (F := Ideal) alpha kvs i = kdTab alpha kvs i := rfl
theorem kd_apply' (i : S32x128x128.Idx) : val_main_v71 (F := Ideal) alpha kvs i = kdTab alpha kvs i := rfl

end Cert.ReferenceIdeal.Heads

end
-- ==== Proof.RefOut.lean ====
/-
  The reference's output is the specification's: per head the causal scores (the lower triangle of the scaled
  queries against the scaled keys) mixed with the values, plus the scaled queries against the decayed state,
  under gelu (the reference cubes as `(u · u) · u`, the specification as `u · (u · u)`: commutativity), and the
  heads laid side by side along the columns by a transposition and a reshape.
-/
import proofs.«414871_j38585986187935_3_alg».proof.Proof.RefParts
import Idealize.ShloMosaic.Lib.StableHlo.Predicate

set_option maxRecDepth 16384

noncomputable section

namespace Cert.ReferenceIdeal.Heads

open Cert.ReferenceIdeal Cert.ReferenceIdeal.Gen Cert.ReferenceIdeal.Read Cert.Retention
open Idealize.ShloMosaic Idealize.ShloMosaic.ValueIdx

variable (x : FVec Ideal S128x4096 .f32) (W : FVec Ideal S12288x4096 .f32) (alpha : FVec Ideal S32x128 .f32) (kvs : FVec Ideal S32x128x128 .f32)

/-- The unmasked scores of head `h`: token `s` against token `j`, the scaled queries against the scaled keys summed
    over the channels. -/
private theorem rawScore_apply (h : Fin 32) (s j : Fin 128) :
    val_main_v40 (F := Ideal) x W alpha (ix3 h s j)
      = ∑ d : Fin 128, scaled (rows x) (wrows W 0 (by decide) h) (slab (pqTab alpha) h) s d
          * scaled (rows x) (wrows W 4096 (by decide) h) (slab (pkTab alpha) h) j d := by
  rw [val_main_v40_apply]
  refine Finset.sum_congr rfl fun d _ => ?_
  have el : lidx_main_v40 (ix3 h s j) d = ix3 h s d := funext fun a => Fin.ext (by
    match a with
    | ⟨0, _⟩ => rfl
    | ⟨1, _⟩ => rfl
    | ⟨2, _⟩ => rfl)
  have er : ridx_main_v40 (ix3 h s j) d = ix3 h j d := funext fun a => Fin.ext (by
    match a with
    | ⟨0, _⟩ => rfl
    | ⟨1, _⟩ => rfl
    | ⟨2, _⟩ => rfl)
  rw [el, er, qs_apply, ks_apply]

/-- The lower-triangle mask: the bit at `(h, s, j)` is set exactly when `j ≤ s`. Both coordinates are below 128, so
    the signed comparison of their 32-bit words is the order of the naturals. -/
private theorem mask_apply (h : Fin 32) (s j : Fin 128) :
    val_main_call0_v5 (F := Ideal) (ix3 h s j) = if j ≤ s then 1#1 else 0#1 := by
  rw [val_main_call0_v5_apply, val_main_call0_v4_apply, val_main_call0_v2_apply, val_main_call0_v0_apply,
    val_main_call0_v1_apply, val_main_call0_c_apply, val_main_call0_v3_apply]
  show IntOp.cmpi .sge (IntOp.addi (BitVec.ofNat 32 s.val) 0#32) (BitVec.ofNat 32 j.val) = _
  have ha : IntOp.addi (BitVec.ofNat 32 s.val) 0#32 = BitVec.ofNat 32 s.val := by
    unfold IntOp.addi; exact BitVec.add_zero _
  rw [ha]
  have hs : (BitVec.ofNat 32 s.val).toNat = s.val := by
    have := s.isLt; rw [BitVec.toNat_ofNat]; omega
  have hj : (BitVec.ofNat 32 j.val).toNat = j.val := by
    have := j.isLt; rw [BitVec.toNat_ofNat]; omega
  have hiff := StableHlo.Predicate.sge_iff_toNat (a := BitVec.ofNat 32 s.val) (b := BitVec.ofNat 32 j.val)
    (by have := s.isLt; rw [hs]; omega) (by have := j.isLt; rw [hj]; omega)
  rw [hs, hj] at hiff
  by_cases hjs : j ≤ s
  · rw [if_pos hjs]; exact hiff.mpr hjs
  · rw [if_neg hjs]; exact eq_zero_of_ne_one fun h1 => hjs (hiff.mp h1)

/-- The masked scores are the specification's causal scores. -/
private theorem score_apply (h : Fin 32) (s j : Fin 128) :
    val_main_v41 (F := Ideal) x W alpha (ix3 h s j)
      = score (rows x) (wrows W 0 (by decide) h) (wrows W 4096 (by decide) h) (slab (pqTab alpha) h) (slab (pkTab alpha) h) s j := by
  rw [val_main_v41_apply, mask_apply, rawScore_apply]
  unfold score
  by_cases hjs : j ≤ s
  · rw [if_pos hjs, if_pos hjs, select_one]
  · rw [if_neg hjs, if_neg hjs, select_zero, val_main_call0_v6_apply, val_main_call0_cst_apply]
    exact Ideal.ofBits_zero_f32

/-- What gelu is applied to, head by head: the values mixed by the causal scores plus the scaled queries read against
    the decayed state. -/
private theorem mixed_apply (h : Fin 32) (s e : Fin 128) :
    val_main_v54 (F := Ideal) x W alpha kvs (ix3 h s e)
      = mixed (rows x) (wrows W 0 (by decide) h) (wrows W 4096 (by decide) h) (wrows W 8192 (by decide) h)
          (slab (pqTab alpha) h) (slab (pkTab alpha) h) (slab (kdTab alpha kvs) h) s e := by
  rw [val_main_v54_apply, val_main_v50_apply, val_main_v53_apply]
  unfold mixed
  show (∑ k : Fin 128, _) + (∑ k : Fin 128, _) = _
  congr 1
  · refine Finset.sum_congr rfl fun j _ => ?_
    have el : lidx_main_v50 (ix3 h s e) j = ix3 h s j := funext fun a => Fin.ext (by
      match a with
      | ⟨0, _⟩ => rfl
      | ⟨1, _⟩ => rfl
      | ⟨2, _⟩ => rfl)
    have er : ridx_main_v50 (ix3 h s e) j = ix3 h j e := funext fun a => Fin.ext (by
      match a with
      | ⟨0, _⟩ => rfl
      | ⟨1, _⟩ => rfl
      | ⟨2, _⟩ => rfl)
    rw [el, er, score_apply, v_apply]
  · refine Finset.sum_congr rfl fun d _ => ?_
    have el : lidx_main_v53 (ix3 h s e) d = ix3 h s d := funext fun a => Fin.ext (by
      match a with
      | ⟨0, _⟩ => rfl
      | ⟨1, _⟩ => rfl
      | ⟨2, _⟩ => rfl)
    have er : ridx_main_v53 (ix3 h s e) d = ix3 h d e := funext fun a => Fin.ext (by
      match a with
      | ⟨0, _⟩ => rfl
      | ⟨1, _⟩ => rfl
      | ⟨2, _⟩ => rfl)
    rw [el, er, qs_apply, kd_apply]
    rfl

/-- The reference's thirteen pointwise stages after the mixing are the tanh form of gelu; it cubes as `(u · u) · u`,
    the specification as `u · (u · u)`. -/
private theorem gelu_apply (i : S32x128x128.Idx) :
    val_main_v67 (F := Ideal) x W alpha kvs i = gelu (val_main_v54 (F := Ideal) x W alpha kvs i) := by
  rw [val_main_v67_apply, val_main_v66_apply, val_main_v65_apply, val_main_cst_6_apply, val_main_v64_apply,
    val_main_v63_apply, val_main_cst_5_apply, val_main_v62_apply, val_main_v61_apply, val_main_v60_apply,
    val_main_cst_4_apply, val_main_v59_apply, val_main_v58_apply, val_main_v57_apply, val_main_cst_3_apply,
    val_main_v56_apply, val_main_v55_apply]
  generalize val_main_v54 (F := Ideal) x W alpha kvs i = u
  simp only [Ideal.mulf_def, Ideal.addf_def, Ideal.ofBits_def, Ideal.hostUnary_tanh_def]
  unfold gelu
  rw [mul_comm (u * u) u]

/-- The output at row `s`, column `n`: the reshape splits the column into head `n / 128` and channel `n % 128`, the
    transposition puts the head first, and there the reference has the specification's head output. -/
private theorem out_apply (s : Fin 128) (n : Fin 4096) :
    val_main_v69 (F := Ideal) x W alpha kvs (ix2 s n)
      = outArr x W (pqTab alpha) (pkTab alpha) (kdTab alpha kvs) (ix2 s n) := by
  rw [val_main_v69_apply, val_main_v68_apply]
  have h0 : s.val < 128 := s.isLt
  have h1 : n.val < 4096 := n.isLt
  have e : idx_main_v68 (idx_main_v69 (ix2 s n)) = ix3 (headOf n) s (chanOf n) := funext fun a => Fin.ext (by
    match a with
    | ⟨0, _⟩ => show (s.val * 4096 + n.val) / 128 % 32 = n.val / 128; omega
    | ⟨1, _⟩ => show (s.val * 4096 + n.val) / 4096 = s.val; omega
    | ⟨2, _⟩ => show (s.val * 4096 + n.val) % 128 = n.val % 128; omega)
  rw [e, gelu_apply, mixed_apply]
  rfl

theorem out_eq : val_main_v69 (F := Ideal) x W alpha kvs = outArr x W (pqTab alpha) (pkTab alpha) (kdTab alpha kvs) := by
  funext i
  obtain ⟨s, n, rfl⟩ : ∃ (s : Fin 128) (n : Fin 4096), i = ix2 s n := ⟨i 0, i 1, eq_ix2 i⟩
  exact out_apply x W alpha kvs s n

end Cert.ReferenceIdeal.Heads

end
-- ==== Proof.RefState.lean ====
/-
  The reference's new recurrent state is the specification's: the decayed state plus the scaled keys contracted
  with the values over the tokens, head by head.
-/
import proofs.«414871_j38585986187935_3_alg».proof.Proof.RefParts

set_option maxRecDepth 16384

noncomputable section

namespace Cert.ReferenceIdeal.Heads

open Cert.ReferenceIdeal Cert.ReferenceIdeal.Gen Cert.ReferenceIdeal.Read Cert.Retention
open Idealize.ShloMosaic Idealize.ShloMosaic.ValueIdx

variable (x : FVec Ideal S128x4096 .f32) (W : FVec Ideal S12288x4096 .f32) (alpha : FVec Ideal S32x128 .f32) (kvs : FVec Ideal S32x128x128 .f32)

theorem state_eq : val_main_v73 (F := Ideal) x W alpha kvs = stateArr x W (pkTab alpha) (kdTab alpha kvs) := by
  funext i
  obtain ⟨h, d, e, rfl⟩ : ∃ (h : Fin 32) (d e : Fin 128), i = ix3 h d e := ⟨i 0, i 1, i 2, eq_ix3 i⟩
  have el : ∀ s : Fin 128, lidx_main_v72 (ix3 h d e) s = ix3 h s d := fun s =>
    funext fun a => by match a with | ⟨0, _⟩ => rfl | ⟨1, _⟩ => rfl | ⟨2, _⟩ => rfl
  have er : ∀ s : Fin 128, ridx_main_v72 (ix3 h d e) s = ix3 h s e := fun s =>
    funext fun a => by match a with | ⟨0, _⟩ => rfl | ⟨1, _⟩ => rfl | ⟨2, _⟩ => rfl
  rw [val_main_v73_apply, Ideal.addf_def, kd_apply', val_main_v72_apply]
  simp only [el, er, ks_apply, v_apply]
  rfl

end Cert.ReferenceIdeal.Heads

end
-- ==== Proof.lean ====
/-
  A fused retention kernel against its reference, over the extended reals.

  Both programs compute, for each of 32 heads, the gelu of (causal scores · values + scaled queries · decayed
  state) and the new recurrent state (decayed state + scaled keysᵀ · values), from the token rows, one stacked
  weight matrix, the decay rates and the recurrent state. The kernel casts the tokens and the weights to a shorter
  float format before its products; over the extended reals a change of format is the identity. It folds the
  factor 1/sqrt(4096) into the decay tables as the constant 1/64 where the reference multiplies the projections by
  the decay powers and then by 1/sqrt(4096): sqrt(4096) = 64 and the product is associative. The reference cubes as
  (u·u)·u where the kernel cubes as u·(u·u): the product commutes. Every sum is taken over the same terms in the
  same order on both sides, so nothing else of arithmetic is used, and the finiteness of the inputs is never
  opened.

  The kernel runs two heads at each of 16 grid points and reads the stacked weight matrix through three windows
  (the query, key and value thirds); its frame deals the matrix's share among them in thirds. After the run the two
  result arrays are the heads' outputs side by side and the heads' new states, as functions of the four argument
  arrays; the reference's run ends at the same functions.
-/
import proofs.«414871_j38585986187935_3_alg».proof.Defs
import proofs.«414871_j38585986187935_3_alg».proof.Proof.Gen.Kernel
import proofs.«414871_j38585986187935_3_alg».proof.Proof.Gen.Kernel.Skeleton
import proofs.«414871_j38585986187935_3_alg».proof.Proof.Gen.Kernel.Launch
import proofs.«414871_j38585986187935_3_alg».proof.Proof.Gen.Kernel.Points
import proofs.«414871_j38585986187935_3_alg».proof.Proof.Gen.KernelIdeal
import proofs.«414871_j38585986187935_3_alg».proof.Proof.Gen.KernelIdeal.Skeleton
import proofs.«414871_j38585986187935_3_alg».proof.Proof.Gen.KernelIdeal.Launch
import proofs.«414871_j38585986187935_3_alg».proof.Proof.Gen.KernelIdeal.Points
import proofs.«414871_j38585986187935_3_alg».proof.Proof.Gen.ReferenceIdeal
import proofs.«414871_j38585986187935_3_alg».proof.Proof.Gen.Pre_finite_inputs
import proofs.«414871_j38585986187935_3_alg».proof.Proof.Gen.ReferenceIdeal.Run
import proofs.«414871_j38585986187935_3_alg».proof.Proof.Gen.ReferenceIdeal.Read
import proofs.«414871_j38585986187935_3_alg».proof.Proof.KernelFrame
import proofs.«414871_j38585986187935_3_alg».proof.Proof.KFrame
import proofs.«414871_j38585986187935_3_alg».proof.Proof.KValue
import proofs.«414871_j38585986187935_3_alg».proof.Proof.RefOut
import proofs.«414871_j38585986187935_3_alg».proof.Proof.RefState
import Idealize.ShloMosaic.Adequacy
import Idealize.ShloMosaic.Init

set_option maxRecDepth 16384

noncomputable section

namespace Cert.Proof

open Idealize.ShloMosaic Idealize.ShloMosaic.TcCoe Idealize.SL.Sem Cert.Retention

/-- The word-level kernel runs and leaves its arguments as they were. -/
theorem frame_kernel : Cert.frame_Kernel := fun m ρ _ => Cert.Kernel.Frame.frame m ρ

/-- So does the kernel read over the extended reals. -/
theorem frame_kernelIdeal : Cert.frame_KernelIdeal := fun m ρ _ => Cert.KernelIdeal.Frame.frame m ρ

/-- The reference is a line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the output array at the heads' outputs side by side and the state array at the heads' new
    states, as the same functions of arguments that agree. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (pqTab (m ((c.tc : Thread Cert.KernelIdeal.nD Cert.KernelIdeal.τ).loc Cert.KernelIdeal.main_arg2))) (pkTab (m ((c.tc : Thread Cert.KernelIdeal.nD Cert.KernelIdeal.τ).loc Cert.KernelIdeal.main_arg2))) (kdTab (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => stateArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (pkTab (m ((c.tc : Thread Cert.KernelIdeal.nD Cert.KernelIdeal.τ).loc Cert.KernelIdeal.main_arg2))) (kdTab (m ((c.tc : Thread Cert.KernelIdeal.nD Cert.KernelIdeal.τ).loc Cert.KernelIdeal.main_arg2)) (m ((c.tc : Thread Cert.KernelIdeal.nD Cert.KernelIdeal.τ).loc Cert.KernelIdeal.main_arg3))), ?_, ?_⟩
  · refine (θ_run Cert.KernelIdeal.defs _ _).mono (fun r h c => ?_) (Cert.KernelIdeal.Frame.run_main (F := Ideal) m ρ)
    exact ⟨((h c).1 7).trans (Cert.KernelIdeal.Arrays.final_out m c), ((h c).1 8).trans (Cert.KernelIdeal.Arrays.final_state m c),
      ((h c).2 Cert.KernelIdeal.main_arg0 (Pipeline.mem_restRefs_of Cert.KernelIdeal.main_arg0 (by decide) (by decide))).trans (Cert.KernelIdeal.Frame.V_main_arg0 m c),
      ((h c).1 1).trans (((Cert.KernelIdeal.Frame.dats m 0 c).arrAt_in 1 rfl _).trans ((Cert.KernelIdeal.Frame.A_eq m c 1).trans (Cert.KernelIdeal.Frame.V_main_arg1 m c))),
      ((h c).2 Cert.KernelIdeal.main_arg2 (Pipeline.mem_restRefs_of Cert.KernelIdeal.main_arg2 (by decide) (by decide))).trans (Cert.KernelIdeal.Frame.V_main_arg2 m c),
      ((h c).2 Cert.KernelIdeal.main_arg3 (Pipeline.mem_restRefs_of Cert.KernelIdeal.main_arg3 (by decide) (by decide))).trans (Cert.KernelIdeal.Frame.V_main_arg3 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v69_eq, (hagree c).1, (hagree c).2.1, (hagree c).2.2.1, (hagree c).2.2.2]
      exact Cert.ReferenceIdeal.Heads.out_eq _ _ _ _
    · rw [Cert.ReferenceIdeal.Read.val_main_v73_eq, (hagree c).1, (hagree c).2.1, (hagree c).2.2.1, (hagree c).2.2.2]
      exact Cert.ReferenceIdeal.Heads.state_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
